-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S4x4096x64 : Shape := ⟨3, ![4, 4096, 64]⟩
abbrev S4x64x64 : Shape := ⟨3, ![4, 64, 64]⟩
abbrev S1x2048x1024 : Shape := ⟨3, ![1, 2048, 1024]⟩
abbrev S1x2048x64 : Shape := ⟨3, ![1, 2048, 64]⟩
abbrev S1x64x64 : Shape := ⟨3, ![1, 64, 64]⟩
abbrev S64x64 : Shape := ⟨2, ![64, 64]⟩
abbrev S2048x1024 : Shape := ⟨2, ![2048, 1024]⟩
abbrev S2048x64 : Shape := ⟨2, ![2048, 64]⟩
abbrev S1x4096x64 : Shape := ⟨3, ![1, 4096, 64]⟩
abbrev S4096x64 : Shape := ⟨2, ![4096, 64]⟩

abbrev nBuf : Space → Nat
  | .hbm => 7
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x64x64, .f32⟩
  | .hbm, ⟨6, _⟩ => ⟨S4x4096x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x2048x64, .f32⟩
  | .local _ .vmem, ⟨6, _⟩ => ⟨S1x2048x64, .f32⟩
  | .local _ .vmem, ⟨7, _⟩ => ⟨S1x64x64, .f32⟩
  | .local _ .vmem, ⟨8, _⟩ => ⟨S1x64x64, .f32⟩
  | .local _ .vmem, ⟨9, _⟩ => ⟨S64x64, .f32⟩
  | .local _ .vmem, ⟨10, _⟩ => ⟨S1x4096x64, .f32⟩
  | .local _ .vmem, ⟨11, _⟩ => ⟨S1x4096x64, .f32⟩
  | .local _ .vmem, ⟨12, _⟩ => ⟨S1x64x64, .f32⟩
  | .local _ .vmem, ⟨13, _⟩ => ⟨S1x64x64, .f32⟩
  | .local _ .vmem, ⟨14, _⟩ => ⟨S1x4096x64, .f32⟩
  | .local _ .vmem, ⟨15, _⟩ => ⟨S1x4096x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_19 : BitVec 32 := 0#32
  let v28 : BitVec 1 := Scalar.cmpi .ne v27 c0_i32_19
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  dot_S2048x1024_S1024x64_S2048x64_1_0_0_1_n_n_wf : DotDims.WF S2048x1024 S1024x64 S2048x64 [1] [0] [0] [1] [] []
  dot_S2048x64_S2048x64_S64x64_0_0_1_1_n_n_wf : DotDims.WF S2048x64 S2048x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S4x4096x64.size a
  hwx0_4 : ∀ i : grid0.Coords, EltTy.bits .f32 = 32 ∨ (Rect.block (s := S4x4096x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S4x64x64.size a
  hwx0_5 : ∀ i : grid0.Coords, EltTy.bits .f32 = 32 ∨ (Rect.block (s := S4x64x64) S1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S4x4096x64.size a
  hwx1_0 : ∀ i : grid1.Coords, EltTy.bits .f32 = 32 ∨ (Rect.block (s := S4x4096x64) S1x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .f32 = 32 ∨ (Rect.block (s := S4x4096x64) S1x4096x64.size (cc1_transform_2 i) (hinb1_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0_0) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S_ : Shape := ⟨0, ![]⟩
abbrev S4x4096x4096 : Shape := ⟨3, ![4, 4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Kernel.Apply.lean ====
/-
  The second kernel region (the product of the projected queries with the accumulated key-value matrix, scaled by 1/8),
  at any float instance: what its body leaves in the output window's buffer as a function of the two input blocks,
  the body's triple, the region's proof data at the contents the region is entered with, and the body obligation.
-/
import proofs.«160206_j2388001817350_1_alg».proof.Proof.Gen.Kernel.Launch
import proofs.«160206_j2388001817350_1_alg».proof.Proof.Gen.Kernel.Skeleton
import proofs.«160206_j2388001817350_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows' buffers hold their blocks -/

/-- The query window's current buffer holds the query block at every point, whether the block was moved there at
    that point or earlier: the window is an input, never idle and uncut, and the body leaves its buffer as found.
    Stated for any proof data whose array is the entry contents and whose body keeps the block. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The same for the key-value window. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- What the body leaves in the output window's buffer: the scaled product of the query block with the key-value block. -/
def out1_2 (q : Vec F S1x4096x64 .f32) (kv : Vec F S1x64x64 .f32) : Vec F S1x4096x64 .f32 :=
  k1_pay1 q kv

/-- The output block is the body's one payload of the two loaded blocks. -/
theorem out1_2_eq (q : Vec F S1x4096x64 .f32) (kv : Vec F S1x64x64 .f32) : out1_2 q kv = k1_pay1 q kv := rfl

/-! ## The body's triple -/

/-- The offsets of the body's three loads and of its store are all zero. -/
theorem zero_off3 : (![0, 0, 0] : Fin 3 → ℕ) = fun _ => 0 := by
  funext a; fin_cases a <;> rfl

/-- The body's one store is of the whole output buffer, so every index of the buffer lies under it. -/
theorem cover1_2 (p : Vec F S1x4096x64 .f32) (y : S1x4096x64.Idx) :
    ∃ pc ∈ ([⟨Rect.unit (s := S1x4096x64) ![0, 0, 0] S1x4096x64.size inb_S1x4096x64_S1x4096x64_0_0_0, p⟩] :
        List (View.Piece (Elt F) S1x4096x64 .f32)), y ∈ pc.1.set :=
  ⟨_, List.mem_singleton_self _, View.mem_set_unit_zero zero_off3 inb_S1x4096x64_S1x4096x64_0_0_0 y⟩

set_option maxHeartbeats 1000000 in
/-- The body on whole buffers, the two inputs' at contents `q` and `kv` and the output's at anything, runs to the
    continuation with the inputs' buffers as they were and the output's at `out1_2 q kv`: it reads the two inputs whole,
    reads the output whole without using what it read, and overwrites the output whole with the one payload. -/
theorem sound_kernel1 (c : Dev nD) (E : Set ℕ) (i : grid1.Coords)
    (arg1 : Memref sig .tc .vmem S1x4096x64 .f32) (harg1 : arg1.IsWhole)
    (arg2 : Memref sig .tc .vmem S1x64x64 .f32) (harg2 : arg2.IsWhole)
    (arg3 : Memref sig .tc .vmem S1x4096x64 .f32) (harg3 : arg3.IsWhole)
    (q : Vec F S1x4096x64 .f32) (kv : Vec F S1x64x64 .f32) (K : PUnit → sProp 𝕄) :
    iprop(owns (c : Thread nD τ) arg1 fullShare q ∗ owns (c : Thread nD τ) arg2 fullShare kv
        ∗ (∃ d, owns (c : Thread nD τ) arg3 fullShare d)
        ∗ (iprop(owns (c : Thread nD τ) arg1 fullShare q ∗ owns (c : Thread nD τ) arg2 fullShare kv
            ∗ owns (c : Thread nD τ) arg3 fullShare (out1_2 q kv)) -∗ K ⟨⟩))
      ⊢ wp frame (wpE (defs₀ (F := F)) Variants.none c none) E (cc1__apply_kv_kernel i arg1 harg1 arg2 harg2 arg3 harg3) K := by
  simp only [cc1__apply_kv_kernel_eq_skeleton]; unfold cc1__apply_kv_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_2 _),
    View.canon_unit_zero zero_off3, View.readAt_eq_ld, View.readAt_eq_ld,
    View.ld_unit_zero (S := S1x4096x64) zero_off3, View.ld_unit_zero (S := S1x64x64) zero_off3, out1_2_eq]

/-- The second region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## The body at a point of the grid -/

/-- At the region's proof data each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`: the invariant, what the core owes, and the three windows' current
    buffers, each at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the query block and the key-value block, so the triple applies
    with them; the invariant and what the core owes are the same at the next point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, Hq⟩, ⟨%d1, Hkv⟩, ⟨%d2, Hout⟩⟩
  iapply (sound_kernel1 c Set.univ _ _ _ _ _ _ _ (iblk1 V c 0 t) (iblk1 V c 1 t) _)
  isplitl [Hq]; · iexact Hq
  isplitl [Hkv]; · iexact Hkv
  isplitl [Hout]; · iexists _; iexact Hout
  iintro ⟨Hq, Hkv, Hout⟩
  isplitl [HΦ]; · iexact HΦ
  isplitl [Ho]; · iexact Ho
  isplitl [Hq]; · iexact Hq
  isplitl [Hkv]; · iexact Hkv
  iexact Hout

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Proj.lean ====
/-
  The first kernel region (the three projections of a sequence tile, the query tile written out, and the key-value
  matrix accumulated over the two sequence tiles of a batch), at any float instance: the accumulator after each grid
  point, the region's invariant (the accumulator scratch at that value), its proof data, the body's triples in the two
  cases of the sequence-tile coordinate, and the body obligation.
-/
import proofs.«160206_j2388001817350_1_alg».proof.Proof.Gen.Kernel.Launch
import proofs.«160206_j2388001817350_1_alg».proof.Proof.Gen.Kernel.Skeleton
import proofs.«160206_j2388001817350_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator scratch after the body at position `n`: at an even position (the first sequence tile of a batch) the
    tile's key-value product added to zero; at an odd one the tile's product added to what the even position before left. -/
def accAt (c : Dev nD) (n : ℕ) (hn : n < cfg0.N) : Vec F S64x64 .f32 :=
  if n % 2 = 0 then
    k0_pay4 (iblk0 V c 0 ⟨n, hn⟩) (iblk0 V c 1 ⟨n, hn⟩) (iblk0 V c 3 ⟨n, hn⟩) (k0_pay1 (F := F))
  else
    k0_pay4 (iblk0 V c 0 ⟨n, hn⟩) (iblk0 V c 1 ⟨n, hn⟩) (iblk0 V c 3 ⟨n, hn⟩)
      (k0_pay4 (iblk0 V c 0 ⟨n - 1, Nat.lt_of_le_of_lt (Nat.sub_le _ _) hn⟩) (iblk0 V c 1 ⟨n - 1, Nat.lt_of_le_of_lt (Nat.sub_le _ _) hn⟩)
        (iblk0 V c 3 ⟨n - 1, Nat.lt_of_le_of_lt (Nat.sub_le _ _) hn⟩) (k0_pay1 (F := F)))

theorem accAt_even (c : Dev nD) (n : ℕ) (hn : n < cfg0.N) (h : n % 2 = 0) :
    accAt V c n hn = k0_pay4 (iblk0 V c 0 ⟨n, hn⟩) (iblk0 V c 1 ⟨n, hn⟩) (iblk0 V c 3 ⟨n, hn⟩) (k0_pay1 (F := F)) := by
  unfold accAt; rw [if_pos h]

theorem accAt_odd (c : Dev nD) (n : ℕ) (hn : n < cfg0.N) (h : n % 2 = 1) :
    accAt V c n hn = k0_pay4 (iblk0 V c 0 ⟨n, hn⟩) (iblk0 V c 1 ⟨n, hn⟩) (iblk0 V c 3 ⟨n, hn⟩)
      (accAt V c (n - 1) (Nat.lt_of_le_of_lt (Nat.sub_le _ _) hn)) := by
  have h' : (n - 1) % 2 = 0 := by omega
  rw [accAt_even V c (n - 1) _ h']
  unfold accAt
  rw [if_neg (by omega)]

/-- The accumulator scratch as a memref. -/
abbrev scM : Memref sig .tc .vmem S64x64 .f32 := Memref.whole cc0_scratch0

/-- The scoped buffers that are neither a staging buffer of the first region nor its scratch (the second region's
    staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before position `n`: before the first point what the launch hands the region; afterwards the
    accumulator scratch at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare (accAt V c n hn) ∗ restB (F := F) c ∗ (∃ r, prngReg c r))

/-- The first region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (iblk0 V c 2 t)
    | ⟨5, _⟩ => k0_pay5 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 0 t) (iblk0 V c 2 t) := by dsimp only [dat0]
theorem after0_5 (c : Dev nD) (t : Fin cfg0.N) : (dat0 V c).after 5 t = k0_pay5 (accAt V c t.val t.isLt) := by dsimp only [dat0]

/-! ## The invariant's equations -/

theorem PhiS_zero (c : Dev nD) (n : ℕ) (h : n ≤ cfg0.N) (hz : n = 0) : PhiS V c n h = Pipeline.ΦA spec0 c := by
  subst hz; rfl

/-- After point `n`: the accumulator at that point's value. -/
theorem PhiS_succ (c : Dev nD) (n : ℕ) (hn : n < cfg0.N) :
    PhiS V c (n + 1) hn = iprop(owns (c : Thread nD τ) scM fullShare (accAt V c n hn) ∗ restB (F := F) c ∗ (∃ r, prngReg c r)) := rfl

/-- Before a point that is not the first: the accumulator at what the point before left. -/
theorem PhiS_pos (c : Dev nD) (n : ℕ) (h : n ≤ cfg0.N) (hz : n ≠ 0) :
    PhiS V c n h = iprop(owns (c : Thread nD τ) scM fullShare (accAt V c (n - 1) (by omega)) ∗ restB (F := F) c ∗ (∃ r, prngReg c r)) := by
  cases n with
  | zero => exact absurd rfl hz
  | succ n => rfl

/-- What the launch hands the region gives the accumulator scratch as a memref owned at some contents, the other
    scoped buffers and the generator register; -/
theorem PhiA0_elim (c : Dev nD) :
    (Pipeline.ΦA spec0 c : sProp 𝕄)
      ⊢ iprop((∃ d, owns (c : Thread nD τ) scM fullShare d) ∗ restB (F := F) c ∗ (∃ r, prngReg c r)) := by
  unfold Pipeline.ΦA restB; rw [scopedRest0_eq]; simp only [scM, owns_whole]
  iintro ⟨⟨H0, H1⟩, Hg⟩
  isplitl [H0]; · iexact H0
  isplitl [H1]; · iexact H1
  iexact Hg

/-- and is given back by them. -/
theorem PhiA0_intro (c : Dev nD) :
    iprop((∃ d, owns (c : Thread nD τ) scM fullShare d) ∗ restB (F := F) c ∗ (∃ r, prngReg c r))
      ⊢ (Pipeline.ΦA spec0 c : sProp 𝕄) := by
  unfold Pipeline.ΦA restB; rw [scopedRest0_eq]; simp only [scM, owns_whole]
  iintro ⟨H0, H1, Hg⟩
  isplitr [Hg]
  · isplitl [H0]; · iexact H0
    iexact H1
  iexact Hg

/-- The two are one proposition. -/
theorem PhiA0_eq (c : Dev nD) :
    (Pipeline.ΦA spec0 c : sProp 𝕄)
      = iprop((∃ d, owns (c : Thread nD τ) scM fullShare d) ∗ restB (F := F) c ∗ (∃ r, prngReg c r)) :=
  BI.equiv_iff.mp ⟨PhiA0_elim c, PhiA0_intro c⟩

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives back what the launch handed in (the scratch's contents forgotten). -/
theorem hout0 (c : Dev nD) : (dat0 V c).Φ (Fin.last cfg0.N) ⊢ Pipeline.ΦA spec0 c := by
  have hN : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS, HR, Hg⟩
  isplitl [HS]
  · iexists _; iexact HS
  isplitl [HR]
  · iexact HR
  iexact Hg

/-! ## The body's branch conditions and where window 5 is idle -/

/-- The zero offsets of a whole-buffer rectangle, at rank 2 and at rank 3. -/
theorem proj_zero_off2 : (![0, 0] : Fin 2 → Nat) = fun _ => 0 := funext fun a => by fin_cases a <;> rfl
theorem proj_zero_off3 : (![0, 0, 0] : Fin 3 → Nat) = fun _ => 0 := funext fun a => by fin_cases a <;> rfl

/-- The first conditional's condition (the sequence-tile coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition (the sequence-tile coordinate is 1). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- Windows 0 to 4 are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points the key-value window is idle and not written back; at the odd points it is live. -/
theorem idleAt0_5 : ∀ t : Fin cfg0.N, t.val % 2 = 0 → cfg0.idle 5 (grid0.coords t) = true := by decide +kernel
theorem noFlush0_5 : ∀ t : Fin cfg0.N, t.val % 2 = 0 → (cfg0.win 5).flush t = false := by decide +kernel
theorem liveAt0_5 : ∀ t : Fin cfg0.N, t.val % 2 = 1 → cfg0.idle 5 (grid0.coords t) = false := by decide +kernel

/-- Each window's current staging memref at point `t`, as the pipeline passes it to the body, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x64 .f32 := win0_5.stage (cfg0.slots t 5)
abbrev hs0_5 (t : Fin cfg0.N) : (ms0_5 t).IsWhole := hstage0_5 ((cfg0.slots t 5).cast nbuf0_5)

/-! ## What the body finds in the inputs' buffers -/

/-- Each input's current staging buffer holds its block at every point, fetched there or not (the weights are fetched at
    the first point only: their block index never moves). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body's triples -/

set_option maxHeartbeats 4000000 in
/-- AT AN EVEN POINT (the first conditional taken, the second not): on whole memrefs — the inputs' at their contents, the
    query window's at anything, the key-value window's at contents `kv`, the accumulator scratch at anything — the body runs
    to a continuation holding the inputs' as they were, the query window's at the tile's query projection, the key-value
    window's as it was found, and the scratch at the tile's key-value product added to zero. -/
theorem proj_run_even (c : Dev nD) (i : grid0.Coords)
    (arg2 : Memref sig .tc .vmem S1x2048x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1024x64 .f32) (harg5 : arg5.IsWhole)
    (arg6 : Memref sig .tc .vmem S1x2048x64 .f32) (harg6 : arg6.IsWhole)
    (arg7 : Memref sig .tc .vmem S1x64x64 .f32) (harg7 : arg7.IsWhole)
    (arg8 : Memref sig .tc .vmem S64x64 .f32) (harg8 : arg8.IsWhole)
    (hc0 : cond0_0 i) (hc1 : ¬cond0_1 i)
    (x : Vec F S1x2048x1024 .f32) (wk wq wv : Vec F S1024x64 .f32) (kv : Vec F S1x64x64 .f32)
    (E : Set ℕ) (K : PUnit → sProp 𝕄) :
    iprop(owns (c : Thread nD τ) arg2 fullShare x ∗ owns (c : Thread nD τ) arg3 fullShare wk ∗ owns (c : Thread nD τ) arg4 fullShare wq
        ∗ owns (c : Thread nD τ) arg5 fullShare wv ∗ (∃ d, owns (c : Thread nD τ) arg6 fullShare d) ∗ owns (c : Thread nD τ) arg7 fullShare kv
        ∗ (∃ d, owns (c : Thread nD τ) arg8 fullShare d)
        ∗ (iprop(owns (c : Thread nD τ) arg2 fullShare x ∗ owns (c : Thread nD τ) arg3 fullShare wk ∗ owns (c : Thread nD τ) arg4 fullShare wq
            ∗ owns (c : Thread nD τ) arg5 fullShare wv ∗ owns (c : Thread nD τ) arg6 fullShare (k0_pay3 x wq) ∗ owns (c : Thread nD τ) arg7 fullShare kv
            ∗ owns (c : Thread nD τ) arg8 fullShare (k0_pay4 x wk wv (k0_pay1 (F := F)))) -∗ K ⟨⟩))
      ⊢ wp frame (wpE (defs₀ (F := F)) Variants.none c none) E
          (cc0__proj_kv_kernel i arg2 harg2 arg3 harg3 arg4 harg4 arg5 harg5 arg6 harg6 arg7 harg7 arg8 harg8) K := by
  simp only [cc0__proj_kv_kernel_eq_skeleton]; unfold cc0__proj_kv_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_singleton_self _, View.mem_set_unit_zero proj_zero_off3 inb_S1x2048x64_S1x2048x64_0_0_0 y⟩),
      View.canon_unit_zero proj_zero_off3]
    simp only [View.readAt_eq_ld, harg2.read_unread, harg4.read_unread, View.ld_unit_zero (S := S1x2048x1024) proj_zero_off3,
      View.ld_unit_zero (S := S1024x64) proj_zero_off2]
  isplitl [H7]
  · iexists _; isplitr; · ipureintro; exact harg7.read_unread _
    iexact H7
  iexists _; isplitr
  swap; · iexact H8
  ipureintro
  sl_unfold_words
  rw [View.read_writes_eq_canon _ _ _ (fun y => ⟨_, List.mem_cons.mpr (Or.inl rfl), View.mem_set_unit_zero proj_zero_off2 inb_S64x64_S64x64_0_0 y⟩),
    View.canon_cons_unit_zero proj_zero_off2]
  simp only [View.readAt_eq_ld, harg2.read_unread, harg3.read_unread, harg5.read_unread,
    View.ld_unit_zero (S := S1x2048x1024) proj_zero_off3, View.ld_unit_zero (S := S1024x64) proj_zero_off2,
    View.readCov_unit_zero (S := S64x64) _ proj_zero_off2]

set_option maxHeartbeats 4000000 in
/-- AT AN ODD POINT (the first conditional not taken, the second taken): on whole memrefs — the inputs' at their contents,
    the two output windows' at anything, the accumulator scratch at contents `acc` — the body runs to a continuation
    holding the inputs' as they were, the query window's at the tile's query projection, the scratch at the tile's
    key-value product added to `acc`, and the key-value window's at that sum with a unit axis in front. -/
theorem proj_run_odd (c : Dev nD) (i : grid0.Coords)
    (arg2 : Memref sig .tc .vmem S1x2048x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1024x64 .f32) (harg5 : arg5.IsWhole)
    (arg6 : Memref sig .tc .vmem S1x2048x64 .f32) (harg6 : arg6.IsWhole)
    (arg7 : Memref sig .tc .vmem S1x64x64 .f32) (harg7 : arg7.IsWhole)
    (arg8 : Memref sig .tc .vmem S64x64 .f32) (harg8 : arg8.IsWhole)
    (hc0 : ¬cond0_0 i) (hc1 : cond0_1 i)
    (x : Vec F S1x2048x1024 .f32) (wk wq wv : Vec F S1024x64 .f32) (acc : Vec F S64x64 .f32)
    (E : Set ℕ) (K : PUnit → sProp 𝕄) :
    iprop(owns (c : Thread nD τ) arg2 fullShare x ∗ owns (c : Thread nD τ) arg3 fullShare wk ∗ owns (c : Thread nD τ) arg4 fullShare wq
        ∗ owns (c : Thread nD τ) arg5 fullShare wv ∗ (∃ d, owns (c : Thread nD τ) arg6 fullShare d) ∗ (∃ d, owns (c : Thread nD τ) arg7 fullShare d)
        ∗ owns (c : Thread nD τ) arg8 fullShare acc
        ∗ (iprop(owns (c : Thread nD τ) arg2 fullShare x ∗ owns (c : Thread nD τ) arg3 fullShare wk ∗ owns (c : Thread nD τ) arg4 fullShare wq
            ∗ owns (c : Thread nD τ) arg5 fullShare wv ∗ owns (c : Thread nD τ) arg6 fullShare (k0_pay3 x wq)
            ∗ owns (c : Thread nD τ) arg7 fullShare (k0_pay5 (k0_pay4 x wk wv acc))
            ∗ owns (c : Thread nD τ) arg8 fullShare (k0_pay4 x wk wv acc)) -∗ K ⟨⟩))
      ⊢ wp frame (wpE (defs₀ (F := F)) Variants.none c none) E
          (cc0__proj_kv_kernel i arg2 harg2 arg3 harg3 arg4 harg4 arg5 harg5 arg6 harg6 arg7 harg7 arg8 harg8) K := by
  simp only [cc0__proj_kv_kernel_eq_skeleton]; unfold cc0__proj_kv_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_singleton_self _, View.mem_set_unit_zero proj_zero_off3 inb_S1x2048x64_S1x2048x64_0_0_0 y⟩),
      View.canon_unit_zero proj_zero_off3]
    simp only [View.readAt_eq_ld, harg2.read_unread, harg4.read_unread, View.ld_unit_zero (S := S1x2048x1024) proj_zero_off3,
      View.ld_unit_zero (S := S1024x64) proj_zero_off2]
  isplitl [H7]
  · iexists _; isplitr
    swap; · iexact H7
    ipureintro
    sl_unfold_words
    rw [View.read_writes_eq_canon _ _ _ (fun y => ⟨_, List.mem_singleton_self _, View.mem_set_unit_zero proj_zero_off3 inb_S1x64x64_S1x64x64_0_0_0 y⟩),
      View.canon_unit_zero proj_zero_off3]
    simp only [View.readAt_eq_ld, harg2.read_unread, harg3.read_unread, harg5.read_unread, harg8.read_unread,
      View.ld_unit_zero (S := S1x2048x1024) proj_zero_off3, View.ld_unit_zero (S := S1024x64) proj_zero_off2, View.ld_unit_zero (S := S64x64) proj_zero_off2,
      View.readCov_unit_zero (S := S64x64) _ proj_zero_off2]
  iexists _; isplitr
  swap; · iexact H8
  ipureintro
  sl_unfold_words
  rw [View.read_writes_eq_canon _ _ _ (fun y => ⟨_, List.mem_singleton_self _, View.mem_set_unit_zero proj_zero_off2 inb_S64x64_S64x64_0_0 y⟩),
    View.canon_unit_zero proj_zero_off2]
  simp only [View.readAt_eq_ld, harg2.read_unread, harg3.read_unread, harg5.read_unread, harg8.read_unread,
    View.ld_unit_zero (S := S1x2048x1024) proj_zero_off3, View.ld_unit_zero (S := S1024x64) proj_zero_off2, View.ld_unit_zero (S := S64x64) proj_zero_off2]

/-! ## The body obligation, at a generic point -/

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks. At an even point the invariant hands the body the
    accumulator at anything (what the launch gave, or what the batch before left) and takes it back at the tile's product
    added to zero; the key-value window is idle and is handed back as found. At an odd point the invariant hands the
    accumulator at what the even point before left and takes it back with the tile's product added; the key-value window
    is left at that sum. The query window is left at the tile's projection at every point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 8 := lt_of_lt_of_eq t.isLt (show cfg0.N = 8 from N_0)
  by_cases h0 : t.val % 2 = 0
  · rw [Dat.leavesExact_idle (dat0 V c) 5 t (idleAt0_5 t h0) (noFlush0_5 t h0)]
    rw [accAt_even V c t.val t.isLt h0]
    have hc1 : ¬cond0_1 (grid0.coords t) := fun h => by have := (hcond0_1 t).mp h; omega
    by_cases hz : t.val = 0
    · rw [PhiS_castSucc V c t, PhiS_zero V c _ _ hz, PhiA0_eq]
      iintro ⟨⟨⟨%d8, HS⟩, HR, Hg⟩, Ho, ⟨%d0, H0⟩, ⟨%d1, H1⟩, ⟨%d2, H2⟩, ⟨%d3, H3⟩, ⟨%d4, H4⟩, ⟨%d5, H5⟩⟩
      iapply (proj_run_even c (grid0.coords t) (ms0_0 t) (hs0_0 t) (ms0_1 t) (hs0_1 t) (ms0_2 t) (hs0_2 t) (ms0_3 t) (hs0_3 t)
        (ms0_4 t) (hs0_4 t) (ms0_5 t) (hs0_5 t) scM (Memref.isWhole_whole _) ((hcond0_0 t).mpr h0) hc1
        (iblk0 V c 0 t) (iblk0 V c 1 t) (iblk0 V c 2 t) (iblk0 V c 3 t) ((dat0 V c).before 5 t d5) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (proj_run_even c (grid0.coords t) (ms0_0 t) (hs0_0 t) (ms0_1 t) (hs0_1 t) (ms0_2 t) (hs0_2 t) (ms0_3 t) (hs0_3 t)
        (ms0_4 t) (hs0_4 t) (ms0_5 t) (hs0_5 t) scM (Memref.isWhole_whole _) ((hcond0_0 t).mpr h0) hc1
        (iblk0 V c 0 t) (iblk0 V c 1 t) (iblk0 V c 2 t) (iblk0 V c 3 t) ((dat0 V c).before 5 t d5) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5 t h1], after0_5]
    rw [accAt_odd V c t.val t.isLt h1]
    have hc0 : ¬cond0_0 (grid0.coords t) := fun h => h0 ((hcond0_0 t).mp h)
    rw [PhiS_castSucc V c t, PhiS_pos V c _ _ hz]
    iintro ⟨⟨HS, HR, Hg⟩, Ho, ⟨%d0, H0⟩, ⟨%d1, H1⟩, ⟨%d2, H2⟩, ⟨%d3, H3⟩, ⟨%d4, H4⟩, ⟨%d5, H5⟩⟩
    iapply (proj_run_odd c (grid0.coords t) (ms0_0 t) (hs0_0 t) (ms0_1 t) (hs0_1 t) (ms0_2 t) (hs0_2 t) (ms0_3 t) (hs0_3 t)
      (ms0_4 t) (hs0_4 t) (ms0_5 t) (hs0_5 t) scM (Memref.isWhole_whole _) hc0 ((hcond0_1 t).mpr h1)
      (iblk0 V c 0 t) (iblk0 V c 1 t) (iblk0 V c 2 t) (iblk0 V c 3 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation for the first region, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.Kernel.Run.lean ====
/-
  The whole run of the program at any float instance: its two kernel regions in order, each entered with the buffers'
  contents the one before left. The contents of the unscoped buffers at the three boundaries are named (at launch; after
  the first region, whose two result arrays hold what its write-backs leave; after the second likewise), and every weakly
  fair execution is shown to terminate with every unscoped buffer at the last of these. From it: the argument arrays end
  as launched, and the result array holds what the second region's write-backs leave.
-/
import proofs.«160206_j2388001817350_1_alg».proof.Proof.Kernel.Apply
import proofs.«160206_j2388001817350_1_alg».proof.Proof.Kernel.Proj

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references: what the first region's proof data take. -/
abbrev V0 : (c : Dev nD) → (b : Ref sig .tc) → Buf (Elt F) ((c : Thread nD τ).loc b) := fun c b => W0 m c b
/-- At the first region's exit: its arrays at what its write-backs leave, every other buffer as entered. -/
def W1 (c : Dev nD) : Valuation τ sig (Elt F) :=
  Pipeline.withArrays spec0 c (W0 m c) fun w => (dat0 (V0 m) c).arrAt w cfg0.N
/-- The same read at the TensorCore's references: what the second region's proof data take. -/
abbrev V1 : (c : Dev nD) → (b : Ref sig .tc) → Buf (Elt F) ((c : Thread nD τ).loc b) := fun c b => W1 m c b
/-- At the second region's exit. -/
def W2 (c : Dev nD) : Valuation τ sig (Elt F) :=
  Pipeline.withArrays spec1 c (W1 m c) fun w => (dat1 (V1 m) c).arrAt w cfg1.N

/-- After the first region each of its arrays holds what its write-backs leave, -/
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
/-- and a buffer that is none of its arrays what it held at launch. -/
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- After the second region each of its arrays holds what its write-backs leave, -/
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
/-- and a buffer that is none of its arrays what the first region left there. -/
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The contents at the second region's exit, read at the TensorCore's references. -/
abbrev V2 : (c : Dev nD) → (b : Ref sig .tc) → Buf (Elt F) ((c : Thread nD τ).loc b) := fun c b => W2 m c b

/-- The second region finds the query array as the first region's write-backs left it, -/
theorem V1_main_v0_0 (c : Dev nD) : V1 m c main_v0_0 = (dat0 (V0 m) c).arrAt 4 cfg0.N :=
  W1_arr m c 4
/-- and the key-value array likewise; -/
theorem V1_main_v0_1 (c : Dev nD) : V1 m c main_v0_1 = (dat0 (V0 m) c).arrAt 5 cfg0.N :=
  W1_arr m c 5
/-- the first region's input arrays it finds as launched. -/
theorem V0_main_arg0 (c : Dev nD) : V0 m c main_arg0 = m ((c : Thread nD τ).loc main_arg0) := rfl
theorem V0_main_arg1 (c : Dev nD) : V0 m c main_arg1 = m ((c : Thread nD τ).loc main_arg1) := rfl
theorem V0_main_arg2 (c : Dev nD) : V0 m c main_arg2 = m ((c : Thread nD τ).loc main_arg2) := rfl
theorem V0_main_arg3 (c : Dev nD) : V0 m c main_arg3 = m ((c : Thread nD τ).loc main_arg3) := rfl

/-! ### The last boundary read at the result and at the arguments

The result array is the second region's output window. An argument array is none of the second region's arrays, so the
second region leaves it as the first did; the first region reads it through an input window, whose array is never
written, so it is as launched. -/

theorem W2_main_v1 (c : Dev nD) : W2 m c (Proc.devRef .tc main_v1) = (dat1 (V1 m) c).arrAt 2 cfg1.N :=
  W2_arr m c 2

/-- An input array of the first region is after it what it was at launch. -/
theorem W1_in (c : Dev nD) (w : Fin cfg0.W) (hin : (cfg0.win w).isOut = false) :
    W1 m c (Proc.devRef .tc (Pipeline.arrRef spec0 w)) = V0 m c (Pipeline.arrRef spec0 w) :=
  (W1_arr m c w).trans (((dat0 (V0 m) c).arrAt_in w hin _).trans (A_eq0 (V0 m) c w))

theorem W2_main_arg0 (c : Dev nD) : W2 m c (Proc.devRef .tc main_arg0) = m ((c : Thread nD τ).loc main_arg0) :=
  (W2_of_ne m c main_arg0 (by decide)).trans (W1_in m c 0 rfl)
theorem W2_main_arg1 (c : Dev nD) : W2 m c (Proc.devRef .tc main_arg1) = m ((c : Thread nD τ).loc main_arg1) :=
  (W2_of_ne m c main_arg1 (by decide)).trans (W1_in m c 1 rfl)
theorem W2_main_arg2 (c : Dev nD) : W2 m c (Proc.devRef .tc main_arg2) = m ((c : Thread nD τ).loc main_arg2) :=
  (W2_of_ne m c main_arg2 (by decide)).trans (W1_in m c 2 rfl)
theorem W2_main_arg3 (c : Dev nD) : W2 m c (Proc.devRef .tc main_arg3) = m ((c : Thread nD τ).loc main_arg3) :=
  (W2_of_ne m c main_arg3 (by decide)).trans (W1_in m c 3 rfl)

/-! ### What each region's exit hands the unscoped buffers

Each region's arrays hold what its write-backs leave, and every other unscoped buffer what it held at the region's entry. -/

theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The proof data of the two pipelines and the thread state -/

/-- No pipeline has a prefetched table. -/
abbrev adm : (p : Fin 2) → (pcfgs (F := F) p).Adm := fun p => (cfgs p).toPCfg_adm
/-- Each pipeline's proof data at the contents its region is entered with: the first at launch, the second at what the
    first left. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything. -/
abbrev L : GSem nD τ sig → Finset Unit := fun _ => ∅
abbrev lv : GSem nD τ sig → Unit → ℕ := fun _ _ => 0
/-- Beside the buffers through both regions: the core's generator register at some state, and nothing owed. -/
abbrev R (c : Dev nD) : sProp 𝕄 := iprop((∃ r, prngReg c r) ∗ ∃ W, owes (c : Thread nD τ) (0 : CellTallies nD τ sig Unit) W)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the nothing-owed: every unscoped buffer at the last boundary's contents, the generator
    register at some state. -/
abbrev Tₙ (c : Dev nD) : sProp 𝕄 := iprop(StableHlo.held (c : Thread nD τ) (Pipeline.ucRefs τ sig) (W2 m c) ∗ ∃ r, prngReg c r)

/-! ### The regions as segments -/

set_option backward.isDefEq.respectTransparency.types false in
/-- The first region: entered with every unscoped buffer at the launch contents, left with them at `W1`. Its arrays are
    split out of the unscoped buffers and put back at their exit contents; the generator register and the scoped buffers
    no window stages make the class's invariant, which is the region's invariant before the first point, and the
    invariant after the last point gives them back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W1`, left with them at `W2`. Its invariant is the class's at
    every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### @main as its two regions, and the launch -/

/-- @main's segments in order: the first region, then the second; no host operation between or around them. -/
abbrev segs : List (Pipeline.Seg (pcfgs (F := F)) adm (pdats m) () defs₀ 𝒱₀ L lv) :=
  [ .region (reg0 m), .region (reg1 m) ]
/-- @main is the run of those segments. -/
theorem main_run (c : Dev nD) : main (F := F) c = Pipeline.Seg.run (segs m) :=
  main_segs adm (pdats m) () 𝒱₀ L lv (reg0 m) (reg1 m) c

set_option backward.isDefEq.respectTransparency.types false in
/-- THE RUN with the result named: every weakly fair execution terminates; the result array ends at what the second
    region's write-backs leave and each argument array as launched. -/
theorem run_value : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.KernelIdeal.Apply.lean ====
/-
  The second kernel region (the product of the projected queries with the accumulated key-value matrix, scaled by 1/8),
  at any float instance: what its body leaves in the output window's buffer as a function of the two input blocks,
  the body's triple, the region's proof data at the contents the region is entered with, and the body obligation.
-/
import proofs.«160206_j2388001817350_1_alg».proof.Proof.Gen.KernelIdeal.Launch
import proofs.«160206_j2388001817350_1_alg».proof.Proof.Gen.KernelIdeal.Skeleton
import proofs.«160206_j2388001817350_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows' buffers hold their blocks -/

/-- The query window's current buffer holds the query block at every point, whether the block was moved there at
    that point or earlier: the window is an input, never idle and uncut, and the body leaves its buffer as found.
    Stated for any proof data whose array is the entry contents and whose body keeps the block. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The same for the key-value window. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- What the body leaves in the output window's buffer: the scaled product of the query block with the key-value block. -/
def out1_2 (q : Vec F S1x4096x64 .f32) (kv : Vec F S1x64x64 .f32) : Vec F S1x4096x64 .f32 :=
  k1_pay1 q kv

/-- The output block is the body's one payload of the two loaded blocks. -/
theorem out1_2_eq (q : Vec F S1x4096x64 .f32) (kv : Vec F S1x64x64 .f32) : out1_2 q kv = k1_pay1 q kv := rfl

/-! ## The body's triple -/

/-- The offsets of the body's three loads and of its store are all zero. -/
theorem zero_off3 : (![0, 0, 0] : Fin 3 → ℕ) = fun _ => 0 := by
  funext a; fin_cases a <;> rfl

/-- The body's one store is of the whole output buffer, so every index of the buffer lies under it. -/
theorem cover1_2 (p : Vec F S1x4096x64 .f32) (y : S1x4096x64.Idx) :
    ∃ pc ∈ ([⟨Rect.unit (s := S1x4096x64) ![0, 0, 0] S1x4096x64.size inb_S1x4096x64_S1x4096x64_0_0_0, p⟩] :
        List (View.Piece (Elt F) S1x4096x64 .f32)), y ∈ pc.1.set :=
  ⟨_, List.mem_singleton_self _, View.mem_set_unit_zero zero_off3 inb_S1x4096x64_S1x4096x64_0_0_0 y⟩

set_option maxHeartbeats 1000000 in
/-- The body on whole buffers, the two inputs' at contents `q` and `kv` and the output's at anything, runs to the
    continuation with the inputs' buffers as they were and the output's at `out1_2 q kv`: it reads the two inputs whole,
    reads the output whole without using what it read, and overwrites the output whole with the one payload. -/
theorem sound_kernel1 (c : Dev nD) (E : Set ℕ) (i : grid1.Coords)
    (arg1 : Memref sig .tc .vmem S1x4096x64 .f32) (harg1 : arg1.IsWhole)
    (arg2 : Memref sig .tc .vmem S1x64x64 .f32) (harg2 : arg2.IsWhole)
    (arg3 : Memref sig .tc .vmem S1x4096x64 .f32) (harg3 : arg3.IsWhole)
    (q : Vec F S1x4096x64 .f32) (kv : Vec F S1x64x64 .f32) (K : PUnit → sProp 𝕄) :
    iprop(owns (c : Thread nD τ) arg1 fullShare q ∗ owns (c : Thread nD τ) arg2 fullShare kv
        ∗ (∃ d, owns (c : Thread nD τ) arg3 fullShare d)
        ∗ (iprop(owns (c : Thread nD τ) arg1 fullShare q ∗ owns (c : Thread nD τ) arg2 fullShare kv
            ∗ owns (c : Thread nD τ) arg3 fullShare (out1_2 q kv)) -∗ K ⟨⟩))
      ⊢ wp frame (wpE (defs₀ (F := F)) Variants.none c none) E (cc1__apply_kv_kernel i arg1 harg1 arg2 harg2 arg3 harg3) K := by
  simp only [cc1__apply_kv_kernel_eq_skeleton]; unfold cc1__apply_kv_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_2 _),
    View.canon_unit_zero zero_off3, View.readAt_eq_ld, View.readAt_eq_ld,
    View.ld_unit_zero (S := S1x4096x64) zero_off3, View.ld_unit_zero (S := S1x64x64) zero_off3, out1_2_eq]

/-- The second region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## The body at a point of the grid -/

/-- At the region's proof data each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`: the invariant, what the core owes, and the three windows' current
    buffers, each at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the query block and the key-value block, so the triple applies
    with them; the invariant and what the core owes are the same at the next point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, Hq⟩, ⟨%d1, Hkv⟩, ⟨%d2, Hout⟩⟩
  iapply (sound_kernel1 c Set.univ _ _ _ _ _ _ _ (iblk1 V c 0 t) (iblk1 V c 1 t) _)
  isplitl [Hq]; · iexact Hq
  isplitl [Hkv]; · iexact Hkv
  isplitl [Hout]; · iexists _; iexact Hout
  iintro ⟨Hq, Hkv, Hout⟩
  isplitl [HΦ]; · iexact HΦ
  isplitl [Ho]; · iexact Ho
  isplitl [Hq]; · iexact Hq
  isplitl [Hkv]; · iexact Hkv
  iexact Hout

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Proj.lean ====
/-
  The first kernel region (the three projections of a sequence tile, the query tile written out, and the key-value
  matrix accumulated over the two sequence tiles of a batch), at any float instance: the accumulator after each grid
  point, the region's invariant (the accumulator scratch at that value), its proof data, the body's triples in the two
  cases of the sequence-tile coordinate, and the body obligation.
-/
import proofs.«160206_j2388001817350_1_alg».proof.Proof.Gen.KernelIdeal.Launch
import proofs.«160206_j2388001817350_1_alg».proof.Proof.Gen.KernelIdeal.Skeleton
import proofs.«160206_j2388001817350_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator scratch after the body at position `n`: at an even position (the first sequence tile of a batch) the
    tile's key-value product added to zero; at an odd one the tile's product added to what the even position before left. -/
def accAt (c : Dev nD) (n : ℕ) (hn : n < cfg0.N) : Vec F S64x64 .f32 :=
  if n % 2 = 0 then
    k0_pay4 (iblk0 V c 0 ⟨n, hn⟩) (iblk0 V c 1 ⟨n, hn⟩) (iblk0 V c 3 ⟨n, hn⟩) (k0_pay1 (F := F))
  else
    k0_pay4 (iblk0 V c 0 ⟨n, hn⟩) (iblk0 V c 1 ⟨n, hn⟩) (iblk0 V c 3 ⟨n, hn⟩)
      (k0_pay4 (iblk0 V c 0 ⟨n - 1, Nat.lt_of_le_of_lt (Nat.sub_le _ _) hn⟩) (iblk0 V c 1 ⟨n - 1, Nat.lt_of_le_of_lt (Nat.sub_le _ _) hn⟩)
        (iblk0 V c 3 ⟨n - 1, Nat.lt_of_le_of_lt (Nat.sub_le _ _) hn⟩) (k0_pay1 (F := F)))

theorem accAt_even (c : Dev nD) (n : ℕ) (hn : n < cfg0.N) (h : n % 2 = 0) :
    accAt V c n hn = k0_pay4 (iblk0 V c 0 ⟨n, hn⟩) (iblk0 V c 1 ⟨n, hn⟩) (iblk0 V c 3 ⟨n, hn⟩) (k0_pay1 (F := F)) := by
  unfold accAt; rw [if_pos h]

theorem accAt_odd (c : Dev nD) (n : ℕ) (hn : n < cfg0.N) (h : n % 2 = 1) :
    accAt V c n hn = k0_pay4 (iblk0 V c 0 ⟨n, hn⟩) (iblk0 V c 1 ⟨n, hn⟩) (iblk0 V c 3 ⟨n, hn⟩)
      (accAt V c (n - 1) (Nat.lt_of_le_of_lt (Nat.sub_le _ _) hn)) := by
  have h' : (n - 1) % 2 = 0 := by omega
  rw [accAt_even V c (n - 1) _ h']
  unfold accAt
  rw [if_neg (by omega)]

/-- The accumulator scratch as a memref. -/
abbrev scM : Memref sig .tc .vmem S64x64 .f32 := Memref.whole cc0_scratch0

/-- The scoped buffers that are neither a staging buffer of the first region nor its scratch (the second region's
    staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before position `n`: before the first point what the launch hands the region; afterwards the
    accumulator scratch at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare (accAt V c n hn) ∗ restB (F := F) c ∗ (∃ r, prngReg c r))

/-- The first region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 0 t) (iblk0 V c 2 t)
    | ⟨5, _⟩ => k0_pay5 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 0 t) (iblk0 V c 2 t) := by dsimp only [dat0]
theorem after0_5 (c : Dev nD) (t : Fin cfg0.N) : (dat0 V c).after 5 t = k0_pay5 (accAt V c t.val t.isLt) := by dsimp only [dat0]

/-! ## The invariant's equations -/

theorem PhiS_zero (c : Dev nD) (n : ℕ) (h : n ≤ cfg0.N) (hz : n = 0) : PhiS V c n h = Pipeline.ΦA spec0 c := by
  subst hz; rfl

/-- After point `n`: the accumulator at that point's value. -/
theorem PhiS_succ (c : Dev nD) (n : ℕ) (hn : n < cfg0.N) :
    PhiS V c (n + 1) hn = iprop(owns (c : Thread nD τ) scM fullShare (accAt V c n hn) ∗ restB (F := F) c ∗ (∃ r, prngReg c r)) := rfl

/-- Before a point that is not the first: the accumulator at what the point before left. -/
theorem PhiS_pos (c : Dev nD) (n : ℕ) (h : n ≤ cfg0.N) (hz : n ≠ 0) :
    PhiS V c n h = iprop(owns (c : Thread nD τ) scM fullShare (accAt V c (n - 1) (by omega)) ∗ restB (F := F) c ∗ (∃ r, prngReg c r)) := by
  cases n with
  | zero => exact absurd rfl hz
  | succ n => rfl

/-- What the launch hands the region gives the accumulator scratch as a memref owned at some contents, the other
    scoped buffers and the generator register; -/
theorem PhiA0_elim (c : Dev nD) :
    (Pipeline.ΦA spec0 c : sProp 𝕄)
      ⊢ iprop((∃ d, owns (c : Thread nD τ) scM fullShare d) ∗ restB (F := F) c ∗ (∃ r, prngReg c r)) := by
  unfold Pipeline.ΦA restB; rw [scopedRest0_eq]; simp only [scM, owns_whole]
  iintro ⟨⟨H0, H1⟩, Hg⟩
  isplitl [H0]; · iexact H0
  isplitl [H1]; · iexact H1
  iexact Hg

/-- and is given back by them. -/
theorem PhiA0_intro (c : Dev nD) :
    iprop((∃ d, owns (c : Thread nD τ) scM fullShare d) ∗ restB (F := F) c ∗ (∃ r, prngReg c r))
      ⊢ (Pipeline.ΦA spec0 c : sProp 𝕄) := by
  unfold Pipeline.ΦA restB; rw [scopedRest0_eq]; simp only [scM, owns_whole]
  iintro ⟨H0, H1, Hg⟩
  isplitr [Hg]
  · isplitl [H0]; · iexact H0
    iexact H1
  iexact Hg

/-- The two are one proposition. -/
theorem PhiA0_eq (c : Dev nD) :
    (Pipeline.ΦA spec0 c : sProp 𝕄)
      = iprop((∃ d, owns (c : Thread nD τ) scM fullShare d) ∗ restB (F := F) c ∗ (∃ r, prngReg c r)) :=
  BI.equiv_iff.mp ⟨PhiA0_elim c, PhiA0_intro c⟩

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives back what the launch handed in (the scratch's contents forgotten). -/
theorem hout0 (c : Dev nD) : (dat0 V c).Φ (Fin.last cfg0.N) ⊢ Pipeline.ΦA spec0 c := by
  have hN : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS, HR, Hg⟩
  isplitl [HS]
  · iexists _; iexact HS
  isplitl [HR]
  · iexact HR
  iexact Hg

/-! ## The body's branch conditions and where window 5 is idle -/

/-- The zero offsets of a whole-buffer rectangle, at rank 2 and at rank 3. -/
theorem proj_zero_off2 : (![0, 0] : Fin 2 → Nat) = fun _ => 0 := funext fun a => by fin_cases a <;> rfl
theorem proj_zero_off3 : (![0, 0, 0] : Fin 3 → Nat) = fun _ => 0 := funext fun a => by fin_cases a <;> rfl

/-- The first conditional's condition (the sequence-tile coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition (the sequence-tile coordinate is 1). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- Windows 0 to 4 are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points the key-value window is idle and not written back; at the odd points it is live. -/
theorem idleAt0_5 : ∀ t : Fin cfg0.N, t.val % 2 = 0 → cfg0.idle 5 (grid0.coords t) = true := by decide +kernel
theorem noFlush0_5 : ∀ t : Fin cfg0.N, t.val % 2 = 0 → (cfg0.win 5).flush t = false := by decide +kernel
theorem liveAt0_5 : ∀ t : Fin cfg0.N, t.val % 2 = 1 → cfg0.idle 5 (grid0.coords t) = false := by decide +kernel

/-- Each window's current staging memref at point `t`, as the pipeline passes it to the body, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x64 .f32 := win0_5.stage (cfg0.slots t 5)
abbrev hs0_5 (t : Fin cfg0.N) : (ms0_5 t).IsWhole := hstage0_5 ((cfg0.slots t 5).cast nbuf0_5)

/-! ## What the body finds in the inputs' buffers -/

/-- Each input's current staging buffer holds its block at every point, fetched there or not (the weights are fetched at
    the first point only: their block index never moves). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body's triples -/

set_option maxHeartbeats 4000000 in
/-- AT AN EVEN POINT (the first conditional taken, the second not): on whole memrefs — the inputs' at their contents, the
    query window's at anything, the key-value window's at contents `kv`, the accumulator scratch at anything — the body runs
    to a continuation holding the inputs' as they were, the query window's at the tile's query projection, the key-value
    window's as it was found, and the scratch at the tile's key-value product added to zero. -/
theorem proj_run_even (c : Dev nD) (i : grid0.Coords)
    (arg2 : Memref sig .tc .vmem S1x2048x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1024x64 .f32) (harg5 : arg5.IsWhole)
    (arg6 : Memref sig .tc .vmem S1x2048x64 .f32) (harg6 : arg6.IsWhole)
    (arg7 : Memref sig .tc .vmem S1x64x64 .f32) (harg7 : arg7.IsWhole)
    (arg8 : Memref sig .tc .vmem S64x64 .f32) (harg8 : arg8.IsWhole)
    (hc0 : cond0_0 i) (hc1 : ¬cond0_1 i)
    (x : Vec F S1x2048x1024 .f32) (wk wq wv : Vec F S1024x64 .f32) (kv : Vec F S1x64x64 .f32)
    (E : Set ℕ) (K : PUnit → sProp 𝕄) :
    iprop(owns (c : Thread nD τ) arg2 fullShare x ∗ owns (c : Thread nD τ) arg3 fullShare wk ∗ owns (c : Thread nD τ) arg4 fullShare wq
        ∗ owns (c : Thread nD τ) arg5 fullShare wv ∗ (∃ d, owns (c : Thread nD τ) arg6 fullShare d) ∗ owns (c : Thread nD τ) arg7 fullShare kv
        ∗ (∃ d, owns (c : Thread nD τ) arg8 fullShare d)
        ∗ (iprop(owns (c : Thread nD τ) arg2 fullShare x ∗ owns (c : Thread nD τ) arg3 fullShare wk ∗ owns (c : Thread nD τ) arg4 fullShare wq
            ∗ owns (c : Thread nD τ) arg5 fullShare wv ∗ owns (c : Thread nD τ) arg6 fullShare (k0_pay3 x wq) ∗ owns (c : Thread nD τ) arg7 fullShare kv
            ∗ owns (c : Thread nD τ) arg8 fullShare (k0_pay4 x wk wv (k0_pay1 (F := F)))) -∗ K ⟨⟩))
      ⊢ wp frame (wpE (defs₀ (F := F)) Variants.none c none) E
          (cc0__proj_kv_kernel i arg2 harg2 arg3 harg3 arg4 harg4 arg5 harg5 arg6 harg6 arg7 harg7 arg8 harg8) K := by
  simp only [cc0__proj_kv_kernel_eq_skeleton]; unfold cc0__proj_kv_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_singleton_self _, View.mem_set_unit_zero proj_zero_off3 inb_S1x2048x64_S1x2048x64_0_0_0 y⟩),
      View.canon_unit_zero proj_zero_off3]
    simp only [View.readAt_eq_ld, harg2.read_unread, harg4.read_unread, View.ld_unit_zero (S := S1x2048x1024) proj_zero_off3,
      View.ld_unit_zero (S := S1024x64) proj_zero_off2]
  isplitl [H7]
  · iexists _; isplitr; · ipureintro; exact harg7.read_unread _
    iexact H7
  iexists _; isplitr
  swap; · iexact H8
  ipureintro
  sl_unfold_words
  rw [View.read_writes_eq_canon _ _ _ (fun y => ⟨_, List.mem_cons.mpr (Or.inl rfl), View.mem_set_unit_zero proj_zero_off2 inb_S64x64_S64x64_0_0 y⟩),
    View.canon_cons_unit_zero proj_zero_off2]
  simp only [View.readAt_eq_ld, harg2.read_unread, harg3.read_unread, harg5.read_unread,
    View.ld_unit_zero (S := S1x2048x1024) proj_zero_off3, View.ld_unit_zero (S := S1024x64) proj_zero_off2,
    View.readCov_unit_zero (S := S64x64) _ proj_zero_off2]

set_option maxHeartbeats 4000000 in
/-- AT AN ODD POINT (the first conditional not taken, the second taken): on whole memrefs — the inputs' at their contents,
    the two output windows' at anything, the accumulator scratch at contents `acc` — the body runs to a continuation
    holding the inputs' as they were, the query window's at the tile's query projection, the scratch at the tile's
    key-value product added to `acc`, and the key-value window's at that sum with a unit axis in front. -/
theorem proj_run_odd (c : Dev nD) (i : grid0.Coords)
    (arg2 : Memref sig .tc .vmem S1x2048x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1024x64 .f32) (harg5 : arg5.IsWhole)
    (arg6 : Memref sig .tc .vmem S1x2048x64 .f32) (harg6 : arg6.IsWhole)
    (arg7 : Memref sig .tc .vmem S1x64x64 .f32) (harg7 : arg7.IsWhole)
    (arg8 : Memref sig .tc .vmem S64x64 .f32) (harg8 : arg8.IsWhole)
    (hc0 : ¬cond0_0 i) (hc1 : cond0_1 i)
    (x : Vec F S1x2048x1024 .f32) (wk wq wv : Vec F S1024x64 .f32) (acc : Vec F S64x64 .f32)
    (E : Set ℕ) (K : PUnit → sProp 𝕄) :
    iprop(owns (c : Thread nD τ) arg2 fullShare x ∗ owns (c : Thread nD τ) arg3 fullShare wk ∗ owns (c : Thread nD τ) arg4 fullShare wq
        ∗ owns (c : Thread nD τ) arg5 fullShare wv ∗ (∃ d, owns (c : Thread nD τ) arg6 fullShare d) ∗ (∃ d, owns (c : Thread nD τ) arg7 fullShare d)
        ∗ owns (c : Thread nD τ) arg8 fullShare acc
        ∗ (iprop(owns (c : Thread nD τ) arg2 fullShare x ∗ owns (c : Thread nD τ) arg3 fullShare wk ∗ owns (c : Thread nD τ) arg4 fullShare wq
            ∗ owns (c : Thread nD τ) arg5 fullShare wv ∗ owns (c : Thread nD τ) arg6 fullShare (k0_pay3 x wq)
            ∗ owns (c : Thread nD τ) arg7 fullShare (k0_pay5 (k0_pay4 x wk wv acc))
            ∗ owns (c : Thread nD τ) arg8 fullShare (k0_pay4 x wk wv acc)) -∗ K ⟨⟩))
      ⊢ wp frame (wpE (defs₀ (F := F)) Variants.none c none) E
          (cc0__proj_kv_kernel i arg2 harg2 arg3 harg3 arg4 harg4 arg5 harg5 arg6 harg6 arg7 harg7 arg8 harg8) K := by
  simp only [cc0__proj_kv_kernel_eq_skeleton]; unfold cc0__proj_kv_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_singleton_self _, View.mem_set_unit_zero proj_zero_off3 inb_S1x2048x64_S1x2048x64_0_0_0 y⟩),
      View.canon_unit_zero proj_zero_off3]
    simp only [View.readAt_eq_ld, harg2.read_unread, harg4.read_unread, View.ld_unit_zero (S := S1x2048x1024) proj_zero_off3,
      View.ld_unit_zero (S := S1024x64) proj_zero_off2]
  isplitl [H7]
  · iexists _; isplitr
    swap; · iexact H7
    ipureintro
    sl_unfold_words
    rw [View.read_writes_eq_canon _ _ _ (fun y => ⟨_, List.mem_singleton_self _, View.mem_set_unit_zero proj_zero_off3 inb_S1x64x64_S1x64x64_0_0_0 y⟩),
      View.canon_unit_zero proj_zero_off3]
    simp only [View.readAt_eq_ld, harg2.read_unread, harg3.read_unread, harg5.read_unread, harg8.read_unread,
      View.ld_unit_zero (S := S1x2048x1024) proj_zero_off3, View.ld_unit_zero (S := S1024x64) proj_zero_off2, View.ld_unit_zero (S := S64x64) proj_zero_off2,
      View.readCov_unit_zero (S := S64x64) _ proj_zero_off2]
  iexists _; isplitr
  swap; · iexact H8
  ipureintro
  sl_unfold_words
  rw [View.read_writes_eq_canon _ _ _ (fun y => ⟨_, List.mem_singleton_self _, View.mem_set_unit_zero proj_zero_off2 inb_S64x64_S64x64_0_0 y⟩),
    View.canon_unit_zero proj_zero_off2]
  simp only [View.readAt_eq_ld, harg2.read_unread, harg3.read_unread, harg5.read_unread, harg8.read_unread,
    View.ld_unit_zero (S := S1x2048x1024) proj_zero_off3, View.ld_unit_zero (S := S1024x64) proj_zero_off2, View.ld_unit_zero (S := S64x64) proj_zero_off2]

/-! ## The body obligation, at a generic point -/

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks. At an even point the invariant hands the body the
    accumulator at anything (what the launch gave, or what the batch before left) and takes it back at the tile's product
    added to zero; the key-value window is idle and is handed back as found. At an odd point the invariant hands the
    accumulator at what the even point before left and takes it back with the tile's product added; the key-value window
    is left at that sum. The query window is left at the tile's projection at every point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 8 := lt_of_lt_of_eq t.isLt (show cfg0.N = 8 from N_0)
  by_cases h0 : t.val % 2 = 0
  · rw [Dat.leavesExact_idle (dat0 V c) 5 t (idleAt0_5 t h0) (noFlush0_5 t h0)]
    rw [accAt_even V c t.val t.isLt h0]
    have hc1 : ¬cond0_1 (grid0.coords t) := fun h => by have := (hcond0_1 t).mp h; omega
    by_cases hz : t.val = 0
    · rw [PhiS_castSucc V c t, PhiS_zero V c _ _ hz, PhiA0_eq]
      iintro ⟨⟨⟨%d8, HS⟩, HR, Hg⟩, Ho, ⟨%d0, H0⟩, ⟨%d1, H1⟩, ⟨%d2, H2⟩, ⟨%d3, H3⟩, ⟨%d4, H4⟩, ⟨%d5, H5⟩⟩
      iapply (proj_run_even c (grid0.coords t) (ms0_0 t) (hs0_0 t) (ms0_1 t) (hs0_1 t) (ms0_2 t) (hs0_2 t) (ms0_3 t) (hs0_3 t)
        (ms0_4 t) (hs0_4 t) (ms0_5 t) (hs0_5 t) scM (Memref.isWhole_whole _) ((hcond0_0 t).mpr h0) hc1
        (iblk0 V c 0 t) (iblk0 V c 1 t) (iblk0 V c 2 t) (iblk0 V c 3 t) ((dat0 V c).before 5 t d5) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (proj_run_even c (grid0.coords t) (ms0_0 t) (hs0_0 t) (ms0_1 t) (hs0_1 t) (ms0_2 t) (hs0_2 t) (ms0_3 t) (hs0_3 t)
        (ms0_4 t) (hs0_4 t) (ms0_5 t) (hs0_5 t) scM (Memref.isWhole_whole _) ((hcond0_0 t).mpr h0) hc1
        (iblk0 V c 0 t) (iblk0 V c 1 t) (iblk0 V c 2 t) (iblk0 V c 3 t) ((dat0 V c).before 5 t d5) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5 t h1], after0_5]
    rw [accAt_odd V c t.val t.isLt h1]
    have hc0 : ¬cond0_0 (grid0.coords t) := fun h => h0 ((hcond0_0 t).mp h)
    rw [PhiS_castSucc V c t, PhiS_pos V c _ _ hz]
    iintro ⟨⟨HS, HR, Hg⟩, Ho, ⟨%d0, H0⟩, ⟨%d1, H1⟩, ⟨%d2, H2⟩, ⟨%d3, H3⟩, ⟨%d4, H4⟩, ⟨%d5, H5⟩⟩
    iapply (proj_run_odd c (grid0.coords t) (ms0_0 t) (hs0_0 t) (ms0_1 t) (hs0_1 t) (ms0_2 t) (hs0_2 t) (ms0_3 t) (hs0_3 t)
      (ms0_4 t) (hs0_4 t) (ms0_5 t) (hs0_5 t) scM (Memref.isWhole_whole _) hc0 ((hcond0_1 t).mpr h1)
      (iblk0 V c 0 t) (iblk0 V c 1 t) (iblk0 V c 2 t) (iblk0 V c 3 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation for the first region, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KernelIdeal.Run.lean ====
/-
  The whole run of the program at any float instance: its two kernel regions in order, each entered with the buffers'
  contents the one before left. The contents of the unscoped buffers at the three boundaries are named (at launch; after
  the first region, whose two result arrays hold what its write-backs leave; after the second likewise), and every weakly
  fair execution is shown to terminate with every unscoped buffer at the last of these. From it: the argument arrays end
  as launched, and the result array holds what the second region's write-backs leave.
-/
import proofs.«160206_j2388001817350_1_alg».proof.Proof.KernelIdeal.Apply
import proofs.«160206_j2388001817350_1_alg».proof.Proof.KernelIdeal.Proj

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references: what the first region's proof data take. -/
abbrev V0 : (c : Dev nD) → (b : Ref sig .tc) → Buf (Elt F) ((c : Thread nD τ).loc b) := fun c b => W0 m c b
/-- At the first region's exit: its arrays at what its write-backs leave, every other buffer as entered. -/
def W1 (c : Dev nD) : Valuation τ sig (Elt F) :=
  Pipeline.withArrays spec0 c (W0 m c) fun w => (dat0 (V0 m) c).arrAt w cfg0.N
/-- The same read at the TensorCore's references: what the second region's proof data take. -/
abbrev V1 : (c : Dev nD) → (b : Ref sig .tc) → Buf (Elt F) ((c : Thread nD τ).loc b) := fun c b => W1 m c b
/-- At the second region's exit. -/
def W2 (c : Dev nD) : Valuation τ sig (Elt F) :=
  Pipeline.withArrays spec1 c (W1 m c) fun w => (dat1 (V1 m) c).arrAt w cfg1.N

/-- After the first region each of its arrays holds what its write-backs leave, -/
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
/-- and a buffer that is none of its arrays what it held at launch. -/
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- After the second region each of its arrays holds what its write-backs leave, -/
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
/-- and a buffer that is none of its arrays what the first region left there. -/
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The contents at the second region's exit, read at the TensorCore's references. -/
abbrev V2 : (c : Dev nD) → (b : Ref sig .tc) → Buf (Elt F) ((c : Thread nD τ).loc b) := fun c b => W2 m c b

/-- The second region finds the query array as the first region's write-backs left it, -/
theorem V1_main_v0_0 (c : Dev nD) : V1 m c main_v0_0 = (dat0 (V0 m) c).arrAt 4 cfg0.N :=
  W1_arr m c 4
/-- and the key-value array likewise; -/
theorem V1_main_v0_1 (c : Dev nD) : V1 m c main_v0_1 = (dat0 (V0 m) c).arrAt 5 cfg0.N :=
  W1_arr m c 5
/-- the first region's input arrays it finds as launched. -/
theorem V0_main_arg0 (c : Dev nD) : V0 m c main_arg0 = m ((c : Thread nD τ).loc main_arg0) := rfl
theorem V0_main_arg1 (c : Dev nD) : V0 m c main_arg1 = m ((c : Thread nD τ).loc main_arg1) := rfl
theorem V0_main_arg2 (c : Dev nD) : V0 m c main_arg2 = m ((c : Thread nD τ).loc main_arg2) := rfl
theorem V0_main_arg3 (c : Dev nD) : V0 m c main_arg3 = m ((c : Thread nD τ).loc main_arg3) := rfl

/-! ### The last boundary read at the result and at the arguments

The result array is the second region's output window. An argument array is none of the second region's arrays, so the
second region leaves it as the first did; the first region reads it through an input window, whose array is never
written, so it is as launched. -/

theorem W2_main_v1 (c : Dev nD) : W2 m c (Proc.devRef .tc main_v1) = (dat1 (V1 m) c).arrAt 2 cfg1.N :=
  W2_arr m c 2

/-- An input array of the first region is after it what it was at launch. -/
theorem W1_in (c : Dev nD) (w : Fin cfg0.W) (hin : (cfg0.win w).isOut = false) :
    W1 m c (Proc.devRef .tc (Pipeline.arrRef spec0 w)) = V0 m c (Pipeline.arrRef spec0 w) :=
  (W1_arr m c w).trans (((dat0 (V0 m) c).arrAt_in w hin _).trans (A_eq0 (V0 m) c w))

theorem W2_main_arg0 (c : Dev nD) : W2 m c (Proc.devRef .tc main_arg0) = m ((c : Thread nD τ).loc main_arg0) :=
  (W2_of_ne m c main_arg0 (by decide)).trans (W1_in m c 0 rfl)
theorem W2_main_arg1 (c : Dev nD) : W2 m c (Proc.devRef .tc main_arg1) = m ((c : Thread nD τ).loc main_arg1) :=
  (W2_of_ne m c main_arg1 (by decide)).trans (W1_in m c 1 rfl)
theorem W2_main_arg2 (c : Dev nD) : W2 m c (Proc.devRef .tc main_arg2) = m ((c : Thread nD τ).loc main_arg2) :=
  (W2_of_ne m c main_arg2 (by decide)).trans (W1_in m c 2 rfl)
theorem W2_main_arg3 (c : Dev nD) : W2 m c (Proc.devRef .tc main_arg3) = m ((c : Thread nD τ).loc main_arg3) :=
  (W2_of_ne m c main_arg3 (by decide)).trans (W1_in m c 3 rfl)

/-! ### What each region's exit hands the unscoped buffers

Each region's arrays hold what its write-backs leave, and every other unscoped buffer what it held at the region's entry. -/

theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The proof data of the two pipelines and the thread state -/

/-- No pipeline has a prefetched table. -/
abbrev adm : (p : Fin 2) → (pcfgs (F := F) p).Adm := fun p => (cfgs p).toPCfg_adm
/-- Each pipeline's proof data at the contents its region is entered with: the first at launch, the second at what the
    first left. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything. -/
abbrev L : GSem nD τ sig → Finset Unit := fun _ => ∅
abbrev lv : GSem nD τ sig → Unit → ℕ := fun _ _ => 0
/-- Beside the buffers through both regions: the core's generator register at some state, and nothing owed. -/
abbrev R (c : Dev nD) : sProp 𝕄 := iprop((∃ r, prngReg c r) ∗ ∃ W, owes (c : Thread nD τ) (0 : CellTallies nD τ sig Unit) W)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the nothing-owed: every unscoped buffer at the last boundary's contents, the generator
    register at some state. -/
abbrev Tₙ (c : Dev nD) : sProp 𝕄 := iprop(StableHlo.held (c : Thread nD τ) (Pipeline.ucRefs τ sig) (W2 m c) ∗ ∃ r, prngReg c r)

/-! ### The regions as segments -/

set_option backward.isDefEq.respectTransparency.types false in
/-- The first region: entered with every unscoped buffer at the launch contents, left with them at `W1`. Its arrays are
    split out of the unscoped buffers and put back at their exit contents; the generator register and the scoped buffers
    no window stages make the class's invariant, which is the region's invariant before the first point, and the
    invariant after the last point gives them back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W1`, left with them at `W2`. Its invariant is the class's at
    every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### @main as its two regions, and the launch -/

/-- @main's segments in order: the first region, then the second; no host operation between or around them. -/
abbrev segs : List (Pipeline.Seg (pcfgs (F := F)) adm (pdats m) () defs₀ 𝒱₀ L lv) :=
  [ .region (reg0 m), .region (reg1 m) ]
/-- @main is the run of those segments. -/
theorem main_run (c : Dev nD) : main (F := F) c = Pipeline.Seg.run (segs m) :=
  main_segs adm (pdats m) () 𝒱₀ L lv (reg0 m) (reg1 m) c

set_option backward.isDefEq.respectTransparency.types false in
/-- THE RUN with the result named: every weakly fair execution terminates; the result array ends at what the second
    region's write-backs leave and each argument array as launched. -/
theorem run_value : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.Spec.lean ====
/-
  The mathematics of the certificate, with no program in sight. Over the extended reals, for a batch of sequences
  x[b, s, h] and three weight matrices, write K, Q, V for the projections x·Wk, x·Wq, x·Wv. The reference forms the
  scores (Q Kᵀ)·c row by row and multiplies them with V; the kernel first accumulates Kᵀ V over the two halves of the
  sequence axis, multiplies Q with that small matrix, and scales by c at the end. When every entry is a real number the
  two are equal: both are the triple sum over (t, d) of Q[s,d]·K[t,d]·V[t,e], times c — products distribute over the
  finite sums and the sums commute, which is where finiteness is used (on the extended reals distributivity fails at
  the infinities).
-/
import Idealize.ShloMosaic.PureOps.Ideal
import Idealize.ShloMosaic.Lib.ValueIdx
import Mathlib.Data.EReal.Basic
import Mathlib.Algebra.BigOperators.Fin
import Mathlib.Algebra.BigOperators.Ring.Finset
import Mathlib.Tactic.Ring

noncomputable section

namespace Cert.Spec

open Idealize.ShloMosaic Idealize.ShloMosaic.ValueIdx

/-- An array of rank 3 read by coordinates. -/
def cur3 {n0 n1 n2 : Nat} (a : (⟨3, ![n0, n1, n2]⟩ : Shape).Idx → EReal) : Fin n0 → Fin n1 → Fin n2 → EReal :=
  fun i j k => a (ix3 i j k)
/-- An array of rank 2 read by coordinates. -/
def cur2 {n0 n1 : Nat} (a : (⟨2, ![n0, n1]⟩ : Shape).Idx → EReal) : Fin n0 → Fin n1 → EReal :=
  fun i j => a (ix2 i j)

/-- The scale 1/√64 = 1/8. -/
def c8 : EReal := ((1 / 8 : ℝ) : EReal)

/-- A projection x·W at (b, s, d). -/
def proj (x : Fin 4 → Fin 4096 → Fin 1024 → EReal) (w : Fin 1024 → Fin 64 → EReal) (b : Fin 4) (s : Fin 4096) (d : Fin 64) : EReal :=
  ∑ h : Fin 1024, x b s h * w h d

/-- The reference: ((Q Kᵀ)·c) V at (b, s, e). -/
def refOut (x : Fin 4 → Fin 4096 → Fin 1024 → EReal) (wk wq wv : Fin 1024 → Fin 64 → EReal) (c : EReal)
    (b : Fin 4) (s : Fin 4096) (e : Fin 64) : EReal :=
  ∑ t : Fin 4096, ((∑ d : Fin 64, proj x wq b s d * proj x wk b t d) * c) * proj x wv b t e

/-- Row `r` of sequence tile `j` (of two tiles of 2048 rows). -/
def tileRow (j : Fin 2) (r : Fin 2048) : Fin 4096 := ⟨j.val * 2048 + r.val, by have := j.isLt; have := r.isLt; omega⟩

/-- One sequence tile's contribution to Kᵀ V at (d, e). -/
def tileKV (x : Fin 4 → Fin 4096 → Fin 1024 → EReal) (wk wv : Fin 1024 → Fin 64 → EReal) (b : Fin 4) (j : Fin 2) (d e : Fin 64) : EReal :=
  ∑ r : Fin 2048, proj x wk b (tileRow j r) d * proj x wv b (tileRow j r) e

/-- The kernel's accumulated Kᵀ V: zero, plus the first tile's contribution, plus the second's. -/
def kvAcc (x : Fin 4 → Fin 4096 → Fin 1024 → EReal) (wk wv : Fin 1024 → Fin 64 → EReal) (b : Fin 4) (d e : Fin 64) : EReal :=
  (0 + tileKV x wk wv b 0 d e) + tileKV x wk wv b 1 d e

/-- The kernel: (Q (Kᵀ V))·c at (b, s, e). -/
def kerOut (x : Fin 4 → Fin 4096 → Fin 1024 → EReal) (wk wq wv : Fin 1024 → Fin 64 → EReal) (c : EReal)
    (b : Fin 4) (s : Fin 4096) (e : Fin 64) : EReal :=
  (∑ d : Fin 64, proj x wq b s d * kvAcc x wk wv b d e) * c

/-- The coercion ℝ → EReal commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: scores times values, summed over the rows, is the query row against the accumulated
    key-value matrix, with the scale taken out. Both sides are the double sum of q d · k t d · v t, times c. -/
theorem real_assoc {T D : Type*} [Fintype T] [Fintype D] (q : D → ℝ) (k : T → D → ℝ) (v : T → ℝ) (c : ℝ) :
    ∑ t, ((∑ d, q d * k t d) * c) * v t = (∑ d, q d * ∑ t, k t d * v t) * c := by
  simp only [Finset.sum_mul, Finset.mul_sum]
  rw [Finset.sum_comm]
  refine Finset.sum_congr rfl fun d _ => Finset.sum_congr rfl fun t _ => ?_
  ring

/-- A sum over the 4096 rows is the sum over the first tile plus the sum over the second. -/
theorem sum_tiles (f : Fin 4096 → ℝ) :
    ∑ t, f t = (∑ r : Fin 2048, f (tileRow 0 r)) + ∑ r : Fin 2048, f (tileRow 1 r) := by
  -- 4096 = 2048 + 2048; the first summand re-indexes by r ↦ 0·2048 + r = r, the second by r ↦ 1·2048 + r = 2048 + r,
  -- and both identities of indices hold by computation.
  have h := Fin.sum_univ_add (a := 2048) (b := 2048) (f := f)
  rw [h]
  congr 1

/-- THE LAW: on real entries and a real scale, the kernel's arrangement equals the reference's. -/
theorem kerOut_eq_refOut (x : Fin 4 → Fin 4096 → Fin 1024 → EReal) (wk wq wv : Fin 1024 → Fin 64 → EReal) (c : ℝ)
    (hx : ∀ b s h, ∃ r : ℝ, x b s h = (r : EReal)) (hwk : ∀ h d, ∃ r : ℝ, wk h d = (r : EReal))
    (hwq : ∀ h d, ∃ r : ℝ, wq h d = (r : EReal)) (hwv : ∀ h d, ∃ r : ℝ, wv h d = (r : EReal))
    (b : Fin 4) (s : Fin 4096) (e : Fin 64) :
    kerOut x wk wq wv (c : EReal) b s e = refOut x wk wq wv (c : EReal) b s e := by
  -- real witnesses for every entry
  choose xr hxr using hx
  choose kr hkr using hwk
  choose qr hqr using hwq
  choose vr hvr using hwv
  -- every projection is the coercion of a real sum
  have hproj : ∀ (w : Fin 1024 → Fin 64 → EReal) (wr : Fin 1024 → Fin 64 → ℝ), (∀ h d, w h d = (wr h d : EReal)) →
      ∀ b s d, proj x w b s d = ((∑ h : Fin 1024, xr b s h * wr h d : ℝ) : EReal) := by
    intro w wr hw b s d
    unfold proj
    rw [coe_finsum]
    refine Finset.sum_congr rfl fun h _ => ?_
    rw [hxr, hw, EReal.coe_mul]
  have hK := hproj wk kr hkr
  have hQ := hproj wq qr hqr
  have hV := hproj wv vr hvr
  -- both sides become the coercion of one real expression; the equation is then one between reals
  unfold kerOut refOut kvAcc tileKV
  simp only [hK, hQ, hV]
  simp only [← EReal.coe_mul, ← coe_finsum, ← EReal.coe_add, ← EReal.coe_zero]
  rw [EReal.coe_eq_coe_iff]
  -- reference side: pull the scale out and exchange the sums; kernel side: 0 + a + b = a + b is the sum over both tiles
  rw [real_assoc]
  congr 1
  refine Finset.sum_congr rfl fun d _ => ?_
  rw [zero_add, ← sum_tiles (fun t => (∑ h, xr b t h * kr h d) * (∑ h, xr b t h * vr h e))]

end Cert.Spec

end
-- ==== Proof.KernelIdeal.PayIdx.lean ====
/-
  The two kernel bodies' arithmetic read at an index, over the extended reals: a projection is a sum over the hidden
  axis; the accumulator step adds, to what the scratch held, the sum over a tile's rows of the products of the key and
  value projections; the second kernel's result is the sum over the 64 inner coordinates of query times key-value entry,
  times 1/8. Changes of float format are identities here, and the unit-axis casts only rename coordinates.
-/
import proofs.«160206_j2388001817350_1_alg».proof.Proof.Gen.KernelIdeal.Skeleton
import proofs.«160206_j2388001817350_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem

/-- The literal 0.125 is the real 1/8. -/
theorem lit_c8 : Ideal.ofBits .f32 0x3E000000#32 = Cert.Spec.c8 := by
  unfold Cert.Spec.c8
  simp [Ideal.ofBits, Ideal.ieee, -EReal.coe_mul]; norm_num

/-! ## The projection product: a tile's rows against a weight matrix -/

/-- Left operand, axis 0: the result's row. -/
theorem mmProjL_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
/-- Left operand, axis 1: the contracted coordinate. -/
theorem mmProjL_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
/-- Right operand, axis 0: the contracted coordinate. -/
theorem mmProjR_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
/-- Right operand, axis 1: the result's column. -/
theorem mmProjR_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The product into the zero accumulator at (p, q): the sum over the contracted coordinate of left (p, k) times right (k, q). -/
theorem mmProj_apply {φ₁ φ₂ : FTy} (a : FVec Ideal S2048x1024 φ₁) (b : FVec Ideal S1024x64 φ₂) (p : Fin 2048) (q : Fin 64) :
    matmul dot_S2048x1024_S1024x64_S2048x64_1_0_0_1_n_n none a b (constant (F := Ideal) S2048x64 .f32 0x00000000#32) (ix2 p q)
      = ∑ k : Fin 1024, a (ix2 p k) * b (ix2 k q) := by
  refine (Ideal.matmul_constant_zero_apply dot_S2048x1024_S1024x64_S2048x64_1_0_0_1_n_n none a b _).trans ?_
  rw [← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p q) ((contrEquiv1 dot_S2048x1024_S1024x64_S2048x64_1_0_0_1_n_n 1024 rfl rfl).symm k) = ix2 p k := funext fun c => Fin.ext (by
    match c with
    | ⟨0, _⟩ => exact mmProjL_0 _ _
    | ⟨1, _⟩ => exact (mmProjL_1 _ _).trans hk)
  have er : dot_S2048x1024_S1024x64_S2048x64_1_0_0_1_n_n.rhsIdx (ix2 p q) ((contrEquiv1 dot_S2048x1024_S1024x64_S2048x64_1_0_0_1_n_n 1024 rfl rfl).symm k) = ix2 k q := funext fun c => Fin.ext (by
    match c with
    | ⟨0, _⟩ => exact (mmProjR_0 _ _).trans hk
    | ⟨1, _⟩ => exact mmProjR_1 _ _)
  rw [el, er]

/-! ## The key-value product: both operands contracted along their rows -/

/-- Left operand, axis 0: the contracted coordinate. -/
theorem mmKVL_0 (i : S64x64.Idx) (q : dot_S2048x64_S2048x64_S64x64_0_0_1_1_n_n.contr.Idx) :
    (dot_S2048x64_S2048x64_S64x64_0_0_1_1_n_n.lhsIdx i q 0).val = (q ⟨0, by decide⟩).val :=
  dot_S2048x64_S2048x64_S64x64_0_0_1_1_n_n.lhsIdx_val_of_single rfl i q
/-- Left operand, axis 1: the result's row. -/
theorem mmKVL_1 (i : S64x64.Idx) (q : dot_S2048x64_S2048x64_S64x64_0_0_1_1_n_n.contr.Idx) :
    (dot_S2048x64_S2048x64_S64x64_0_0_1_1_n_n.lhsIdx i q 1).val = (i 0).val := by
  unfold DotDims.lhsIdx
  rw [dif_neg (show ¬(1 : Fin S2048x64.rank) ∈ dot_S2048x64_S2048x64_S64x64_0_0_1_1_n_n.lhsBatch by decide), dif_pos (show (1 : Fin S2048x64.rank) ∈ dot_S2048x64_S2048x64_S64x64_0_0_1_1_n_n.lhsNonContracting by decide)]
  rfl
/-- Right operand, axis 0: the contracted coordinate. -/
theorem mmKVR_0 (i : S64x64.Idx) (q : dot_S2048x64_S2048x64_S64x64_0_0_1_1_n_n.contr.Idx) :
    (dot_S2048x64_S2048x64_S64x64_0_0_1_1_n_n.rhsIdx i q 0).val = (q ⟨0, by decide⟩).val :=
  dot_S2048x64_S2048x64_S64x64_0_0_1_1_n_n.rhsIdx_val_of_single rfl i q
/-- Right operand, axis 1: the result's column. -/
theorem mmKVR_1 (i : S64x64.Idx) (q : dot_S2048x64_S2048x64_S64x64_0_0_1_1_n_n.contr.Idx) :
    (dot_S2048x64_S2048x64_S64x64_0_0_1_1_n_n.rhsIdx i q 1).val = (i 1).val := by
  unfold DotDims.rhsIdx
  rw [dif_neg (show ¬(1 : Fin S2048x64.rank) ∈ dot_S2048x64_S2048x64_S64x64_0_0_1_1_n_n.rhsBatch by decide), dif_pos (show (1 : Fin S2048x64.rank) ∈ dot_S2048x64_S2048x64_S64x64_0_0_1_1_n_n.rhsNonContracting by decide)]
  rfl

/-- The product into the zero accumulator at (d, e): the sum over the rows r of left (r, d) times right (r, e). -/
theorem mmKV_apply {φ₁ φ₂ : FTy} (a : FVec Ideal S2048x64 φ₁) (b : FVec Ideal S2048x64 φ₂) (d e : Fin 64) :
    matmul dot_S2048x64_S2048x64_S64x64_0_0_1_1_n_n none a b (constant (F := Ideal) S64x64 .f32 0x00000000#32) (ix2 d e)
      = ∑ r : Fin 2048, a (ix2 r d) * b (ix2 r e) := by
  refine (Ideal.matmul_constant_zero_apply dot_S2048x64_S2048x64_S64x64_0_0_1_1_n_n none a b _).trans ?_
  rw [← Equiv.sum_comp (contrEquiv1 dot_S2048x64_S2048x64_S64x64_0_0_1_1_n_n 2048 rfl rfl).symm]
  refine Finset.sum_congr rfl fun k _ => ?_
  have hk := contrEquiv1_symm_val dot_S2048x64_S2048x64_S64x64_0_0_1_1_n_n 2048 rfl rfl k
  have el : dot_S2048x64_S2048x64_S64x64_0_0_1_1_n_n.lhsIdx (ix2 d e) ((contrEquiv1 dot_S2048x64_S2048x64_S64x64_0_0_1_1_n_n 2048 rfl rfl).symm k) = ix2 k d := funext fun c => Fin.ext (by
    match c with
    | ⟨0, _⟩ => exact (mmKVL_0 _ _).trans hk
    | ⟨1, _⟩ => exact mmKVL_1 _ _)
  have er : dot_S2048x64_S2048x64_S64x64_0_0_1_1_n_n.rhsIdx (ix2 d e) ((contrEquiv1 dot_S2048x64_S2048x64_S64x64_0_0_1_1_n_n 2048 rfl rfl).symm k) = ix2 k e := funext fun c => Fin.ext (by
    match c with
    | ⟨0, _⟩ => exact (mmKVR_0 _ _).trans hk
    | ⟨1, _⟩ => exact mmKVR_1 _ _)
  rw [el, er]

/-! ## The query rows against the key-value block -/

/-- Left operand, axis 0: the result's row. -/
theorem mmAppL_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
/-- Left operand, axis 1: the contracted coordinate. -/
theorem mmAppL_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
/-- Right operand, axis 0: the contracted coordinate. -/
theorem mmAppR_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
/-- Right operand, axis 1: the result's column. -/
theorem mmAppR_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product into the zero accumulator at (p, q): the sum over the contracted coordinate of left (p, k) times right (k, q). -/
theorem mmApp_apply {φ₁ φ₂ : FTy} (a : FVec Ideal S4096x64 φ₁) (b : FVec Ideal S64x64 φ₂) (p : Fin 4096) (q : Fin 64) :
    matmul dot_S4096x64_S64x64_S4096x64_1_0_0_1_n_n none a b (constant (F := Ideal) S4096x64 .f32 0x00000000#32) (ix2 p q)
      = ∑ k : Fin 64, a (ix2 p k) * b (ix2 k q) := by
  refine (Ideal.matmul_constant_zero_apply dot_S4096x64_S64x64_S4096x64_1_0_0_1_n_n none a b _).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun c => Fin.ext (by
    match c with
    | ⟨0, _⟩ => exact mmAppL_0 _ _
    | ⟨1, _⟩ => exact (mmAppL_1 _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun c => Fin.ext (by
    match c with
    | ⟨0, _⟩ => exact (mmAppR_0 _ _).trans hk
    | ⟨1, _⟩ => exact mmAppR_1 _ _)
  rw [el, er]

/-! ## The payloads -/

/-- The reset value of the accumulator is zero everywhere. -/
theorem pay1_apply (d e : Fin 64) : (k0_pay1 (F := Ideal) : S64x64.Idx → EReal) (ix2 d e) = 0 := by
  unfold k0_pay1
  rw [shapeCast_self]
  exact Ideal.ofBits_zero_f32

/-- The tile with its unit axis dropped, in the narrower format: the tile's entry. -/
theorem pay2_read (x : Vec Ideal S1x2048x1024 .f32) (r : Fin 2048) (h : Fin 1024) :
    (k0_pay2 x : S2048x1024.Idx → EReal) (ix2 r h) = x (ix3 (0 : Fin 1) r h) := by
  unfold k0_pay2
  exact shapeCast_1ab_ab_apply x _ r h

/-- The query tile at (0, r, d): row r of the tile against column d of the query weights. -/
theorem pay3_apply (x : Vec Ideal S1x2048x1024 .f32) (wq : Vec Ideal S1024x64 .f32) (r : Fin 2048) (d : Fin 64) :
    (k0_pay3 x wq : S1x2048x64.Idx → EReal) (ix3 (0 : Fin 1) r d) = ∑ h : Fin 1024, x (ix3 (0 : Fin 1) r h) * wq (ix2 h d) := by
  unfold k0_pay3
  refine (shapeCast_ab_1ab_apply _ _ (0 : Fin 1) r d).trans ?_
  refine (mmProj_apply _ _ r d).trans ?_
  exact Finset.sum_congr rfl fun h _ => congrArg (· * wq (ix2 h d)) (pay2_read x r h)

/-- The accumulator step at (d, e). -/
theorem pay4_apply (x : Vec Ideal S1x2048x1024 .f32) (wk wv : Vec Ideal S1024x64 .f32) (acc : Vec Ideal S64x64 .f32) (d e : Fin 64) :
    (k0_pay4 x wk wv acc : S64x64.Idx → EReal) (ix2 d e)
      = acc (ix2 d e) + ∑ r : Fin 2048, (∑ h : Fin 1024, x (ix3 (0 : Fin 1) r h) * wk (ix2 h d)) * (∑ h : Fin 1024, x (ix3 (0 : Fin 1) r h) * wv (ix2 h e)) := by
  unfold k0_pay4
  rw [shapeCast_self]
  refine congrArg (acc (ix2 d e) + ·) ?_
  refine (mmKV_apply _ _ d e).trans ?_
  refine Finset.sum_congr rfl fun r _ => ?_
  have hk : ∀ (w : Vec Ideal S1024x64 .f32) (c : Fin 64),
      matmul dot_S2048x1024_S1024x64_S2048x64_1_0_0_1_n_n none (k0_pay2 x) (truncf .bf16 w bitsLt_bf16_f32) (constant (F := Ideal) S2048x64 .f32 0x00000000#32) (ix2 r c)
        = ∑ h : Fin 1024, x (ix3 (0 : Fin 1) r h) * w (ix2 h c) := fun w c =>
    (mmProj_apply _ _ r c).trans (Finset.sum_congr rfl fun h _ => congrArg (· * w (ix2 h c)) (pay2_read x r h))
  exact congrArg₂ (· * ·) (hk wk d) (hk wv e)

/-- The stored key-value block is the accumulator with a unit axis in front. -/
theorem pay5_apply (a : Vec Ideal S64x64 .f32) (d e : Fin 64) :
    (k0_pay5 a : S1x64x64.Idx → EReal) (ix3 (0 : Fin 1) d e) = a (ix2 d e) := by
  unfold k0_pay5
  exact shapeCast_ab_1ab_apply a _ (0 : Fin 1) d e

/-- The second kernel's result at (0, s, e). -/
theorem k1pay1_apply (q : Vec Ideal S1x4096x64 .f32) (kv : Vec Ideal S1x64x64 .f32) (s : Fin 4096) (e : Fin 64) :
    (k1_pay1 q kv : S1x4096x64.Idx → EReal) (ix3 (0 : Fin 1) s e) = (∑ d : Fin 64, q (ix3 (0 : Fin 1) s d) * kv (ix3 (0 : Fin 1) d e)) * Cert.Spec.c8 := by
  unfold k1_pay1
  refine (shapeCast_ab_1ab_apply _ _ (0 : Fin 1) s e).trans ?_
  refine congrArg₂ (· * ·) ?_ lit_c8
  refine (mmApp_apply _ _ s e).trans ?_
  exact Finset.sum_congr rfl fun d _ =>
    congrArg₂ (· * ·) (shapeCast_1ab_ab_apply q _ s d) (shapeCast_1ab_ab_apply kv _ d e)

end Cert.KernelIdeal.HandValue

end
-- ==== Proof.KernelIdeal.Val0.lean ====
/-
  What the first region leaves in its two result arrays, over the extended reals, index by index. Every grid point
  writes its query tile back, and the tiles (batch b, sequence half j) cover the query array: entry (b, s, d) is the
  projection x·Wq there. The key-value block of batch b is written back at the batch's second point only, and then
  holds zero plus the first half's contribution plus the second's: entry (b, d, e) is that accumulated sum.
-/
import proofs.«160206_j2388001817350_1_alg».proof.Proof.KernelIdeal.Proj
import proofs.«160206_j2388001817350_1_alg».proof.Proof.KernelIdeal.PayIdx
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem

open Cert.KernelIdeal.Hand
open Idealize.ShloMosaic.Pipeline (Dat)

variable (V : (c : Dev nD) → (b : Ref sig .tc) → Buf (Elt Ideal) ((c : Thread nD τ).loc b))

/-- The index maps over the eight grid points: point t is (batch t / 2, sequence half t % 2); the sequence
    windows sit at block (t / 2, t % 2, 0), the weight windows at block (0, 0), the key-value window at (t / 2, 0, 0). -/
theorem r0_idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

/-! ## The input blocks as entries of the input arrays

A block's array coordinate on an axis is the block index times the block's size plus the coordinate inside the block. -/

/-- The sequence window's block at point t, read at (0, r, h), is the input at (t / 2, (t % 2)·2048 + r, h). -/
theorem r0_seqBlk_apply (c : Dev nD) (t : Fin cfg0.N) (r : Fin 2048) (h : Fin 1024) (k : S4x4096x1024.Idx)
    (hk0 : (k 0).val = t.val / 2) (hk1 : (k 1).val = (t.val % 2) * 2048 + r.val) (hk2 : (k 2).val = h.val) :
    (iblk0 V c 0 t : Vec Ideal S1x2048x1024 .f32) (ix3 (0 : Fin 1) r h) = (V c main_arg0 : S4x4096x1024.Idx → EReal) k := by
  obtain ⟨e0, e1, e2, -⟩ := r0_idx_facts t
  unfold iblk0
  rw [View.read_apply]
  show V c main_arg0 _ = V c main_arg0 _
  congr 1
  funext a
  apply Fin.ext
  match a with
  | ⟨0, _⟩ => show win0_0.index t (0 : Fin 3) * 1 + 1 * 0 = (k 0).val; rw [e0, hk0]; omega
  | ⟨1, _⟩ => show win0_0.index t (1 : Fin 3) * 2048 + 1 * r.val = (k 1).val; rw [e1, hk1]; omega
  | ⟨2, _⟩ => show win0_0.index t (2 : Fin 3) * 1024 + 1 * h.val = (k 2).val; rw [e2, hk2]; omega

/-- The key weights' block is the whole key weight array, at every point. -/
theorem r0_wkBlk_apply (c : Dev nD) (t : Fin cfg0.N) (h : Fin 1024) (d : Fin 64) :
    (iblk0 V c 1 t : Vec Ideal S1024x64 .f32) (ix2 h d) = (V c main_arg1 : S1024x64.Idx → EReal) (ix2 h d) := by
  obtain ⟨-, -, -, e0, e1, -⟩ := r0_idx_facts t
  unfold iblk0
  rw [View.read_apply]
  show V c main_arg1 _ = V c main_arg1 _
  congr 1
  funext a
  apply Fin.ext
  match a with
  | ⟨0, _⟩ => show win0_1.index t (0 : Fin 2) * 1024 + 1 * h.val = h.val; rw [e0]; omega
  | ⟨1, _⟩ => show win0_1.index t (1 : Fin 2) * 64 + 1 * d.val = d.val; rw [e1]; omega

/-- The query weights' block is the whole query weight array, at every point. -/
theorem r0_wqBlk_apply (c : Dev nD) (t : Fin cfg0.N) (h : Fin 1024) (d : Fin 64) :
    (iblk0 V c 2 t : Vec Ideal S1024x64 .f32) (ix2 h d) = (V c main_arg2 : S1024x64.Idx → EReal) (ix2 h d) := by
  obtain ⟨-, -, -, -, -, e0, e1, -⟩ := r0_idx_facts t
  unfold iblk0
  rw [View.read_apply]
  show V c main_arg2 _ = V c main_arg2 _
  congr 1
  funext a
  apply Fin.ext
  match a with
  | ⟨0, _⟩ => show win0_2.index t (0 : Fin 2) * 1024 + 1 * h.val = h.val; rw [e0]; omega
  | ⟨1, _⟩ => show win0_2.index t (1 : Fin 2) * 64 + 1 * d.val = d.val; rw [e1]; omega

/-- The value weights' block is the whole value weight array, at every point. -/
theorem r0_wvBlk_apply (c : Dev nD) (t : Fin cfg0.N) (h : Fin 1024) (d : Fin 64) :
    (iblk0 V c 3 t : Vec Ideal S1024x64 .f32) (ix2 h d) = (V c main_arg3 : S1024x64.Idx → EReal) (ix2 h d) := by
  obtain ⟨-, -, -, -, -, -, -, e0, e1, -⟩ := r0_idx_facts t
  unfold iblk0
  rw [View.read_apply]
  show V c main_arg3 _ = V c main_arg3 _
  congr 1
  funext a
  apply Fin.ext
  match a with
  | ⟨0, _⟩ => show win0_3.index t (0 : Fin 2) * 1024 + 1 * h.val = h.val; rw [e0]; omega
  | ⟨1, _⟩ => show win0_3.index t (1 : Fin 2) * 64 + 1 * d.val = d.val; rw [e1]; omega

/-! ## The query array -/

/-- The query payload at (0, r, d) is the projection at (b, s, d'), when the tile's row r is the input's row (b, s) and
    the weight block's column d is the weight array's column d'. -/
theorem r0_query_point (A0 : S4x4096x1024.Idx → EReal) (A2 : S1024x64.Idx → EReal)
    (x : Vec Ideal S1x2048x1024 .f32) (wq : Vec Ideal S1024x64 .f32) (b : Fin 4) (s : Fin 4096) (r : Fin 2048) (d d' : Fin 64)
    (hx : ∀ h : Fin 1024, x (ix3 (0 : Fin 1) r h) = A0 (ix3 b s h))
    (hw : ∀ h : Fin 1024, wq (ix2 h d) = A2 (ix2 h d')) :
    (k0_pay3 x wq : S1x2048x64.Idx → EReal) (ix3 (0 : Fin 1) r d)
      = Cert.Spec.proj (Cert.Spec.cur3 A0) (Cert.Spec.cur2 A2) b s d' := by
  rw [pay3_apply]
  unfold Cert.Spec.proj Cert.Spec.cur3 Cert.Spec.cur2
  exact Finset.sum_congr rfl fun h _ => by rw [hx h, hw h]

/-- The query array as one function of the inputs: the projection x·Wq, index by index. -/
def r0_queryArr (c : Dev nD) : S4x4096x64.Idx → EReal := fun i =>
  Cert.Spec.proj (Cert.Spec.cur3 (V c main_arg0)) (Cert.Spec.cur2 (V c main_arg2)) (i 0) (i 1) (i 2)

/-- What point t leaves in the query window, at y, is the query array's value at the array index of y in t's block. -/
theorem r0_queryTile_apply (c : Dev nD) (t : Fin cfg0.N) (y : S1x2048x64.Idx) (i : S4x4096x64.Idx)
    (hi0 : (i 0).val = t.val / 2) (hi1 : (i 1).val = t.val % 2 * 2048 + (y 1).val) (hi2 : (i 2).val = (y 2).val) :
    (k0_pay3 (iblk0 V c 0 t) (iblk0 V c 2 t) : S1x2048x64.Idx → EReal) y = r0_queryArr V c i := by
  obtain ⟨y0, r, d, rfl⟩ : ∃ (y0 : Fin 1) (r : Fin 2048) (d : Fin 64), y = ix3 y0 r d := ⟨y 0, y 1, y 2, eq_ix3 y⟩
  obtain rfl : y0 = 0 := Subsingleton.elim _ _
  unfold r0_queryArr
  refine r0_query_point (V c main_arg0) (V c main_arg2) _ _ (i 0) (i 1) r d (i 2) (fun h => ?_) (fun h => ?_)
  · exact r0_seqBlk_apply V c t r h (ix3 (i 0) (i 1) h) hi0 hi1 rfl
  · rw [r0_wqBlk_apply V c t h d, show (i 2 : Fin 64) = d from Fin.ext hi2]

/-- What point t writes back to the query array is block t of the query array's function. -/
theorem r0_queryFlushed_eq (c : Dev nD) (t : Fin cfg0.N) :
    (dat0 V c).flushed 4 t = ((cfg0.win 4).blk t).view.read (Elt Ideal) (r0_queryArr V c) := by
  show (cfg0.win 4).cut (grid0.coords t) ((dat0 V c).after 4 t) = _
  rw [after0_4]
  obtain ⟨-, -, -, -, -, -, -, -, -, e0, e1, e2, -⟩ := r0_idx_facts t
  funext y
  rw [View.read_apply]
  show (k0_pay3 (iblk0 V c 0 t) (iblk0 V c 2 t) : S1x2048x64.Idx → EReal) y = r0_queryArr V c (((cfg0.win 4).blk t).view.emb y)
  have hy0 : (y 0).val < 1 := (y 0).isLt
  refine r0_queryTile_apply V c t y _ ?_ ?_ ?_
  · show win0_4.index t (0 : Fin 3) * 1 + 1 * (y 0).val = t.val / 2; rw [e0]; omega
  · show win0_4.index t (1 : Fin 3) * 2048 + 1 * (y 1).val = t.val % 2 * 2048 + (y 1).val; rw [e1]; omega
  · show win0_4.index t (2 : Fin 3) * 64 + 1 * (y 2).val = (y 2).val; rw [e2]; omega

/-- Row s of batch b lies in the block of point 2·b + s / 2048, and every point writes its query block back. -/
theorem r0_queryCover (i : S4x4096x64.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 64 := (i 2).isLt
  have hN : grid0.N = 8 := N_0
  obtain ⟨t, ht⟩ : ∃ t : Fin cfg0.N, t.val = 2 * (i 0).val + (i 1).val / 2048 :=
    ⟨⟨2 * (i 0).val + (i 1).val / 2048, by show _ < grid0.N; rw [hN]; omega⟩, rfl⟩
  obtain ⟨-, -, -, -, -, -, -, -, -, e0, e1, e2, -⟩ := r0_idx_facts t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 2048 ≤ (i 1).val ∧ (i 1).val < win0_4.index t (1 : Fin 3) * 2048 + 2048; rw [e1]; omega
  | ⟨2, _⟩ => show win0_4.index t (2 : Fin 3) * 64 ≤ (i 2).val ∧ (i 2).val < win0_4.index t (2 : Fin 3) * 64 + 64; rw [e2]; omega

/-- So the query array ends holding the projection, everywhere. -/
theorem r0_queryArr_eq (c : Dev nD) : (dat0 V c).arrAt 4 cfg0.N = r0_queryArr V c :=
  (dat0 V c).arrAt_eq_of_cover 4 (r0_queryArr V c) (fun t _ => r0_queryFlushed_eq V c t) r0_queryCover

/-! ## The key-value array -/

/-- One tile's sum of products of key and value projections is that tile's contribution to Kᵀ V, when the tile's rows
    are the rows tileRow j r of batch b and the weight blocks are the weight arrays. -/
theorem r0_tileKV_sum (A0 : S4x4096x1024.Idx → EReal) (A1 A3 : S1024x64.Idx → EReal)
    (x : Vec Ideal S1x2048x1024 .f32) (wk wv : Vec Ideal S1024x64 .f32) (b : Fin 4) (j : Fin 2) (d e : Fin 64)
    (hx : ∀ (r : Fin 2048) (h : Fin 1024), x (ix3 (0 : Fin 1) r h) = A0 (ix3 b (Cert.Spec.tileRow j r) h))
    (hk : ∀ (h : Fin 1024) (d : Fin 64), wk (ix2 h d) = A1 (ix2 h d))
    (hv : ∀ (h : Fin 1024) (d : Fin 64), wv (ix2 h d) = A3 (ix2 h d)) :
    (∑ r : Fin 2048, (∑ h : Fin 1024, x (ix3 (0 : Fin 1) r h) * wk (ix2 h d)) * (∑ h : Fin 1024, x (ix3 (0 : Fin 1) r h) * wv (ix2 h e)))
      = Cert.Spec.tileKV (Cert.Spec.cur3 A0) (Cert.Spec.cur2 A1) (Cert.Spec.cur2 A3) b j d e := by
  unfold Cert.Spec.tileKV Cert.Spec.proj Cert.Spec.cur3 Cert.Spec.cur2
  refine Finset.sum_congr rfl fun r _ => ?_
  congr 1
  · exact Finset.sum_congr rfl fun h _ => by rw [hx r h, hk h d]
  · exact Finset.sum_congr rfl fun h _ => by rw [hx r h, hv h e]

/-- Two accumulator steps from the reset value, stored with a unit axis in front: zero, plus the first tile's
    contribution, plus the second's. -/
theorem r0_kv_point (A0 : S4x4096x1024.Idx → EReal) (A1 A3 : S1024x64.Idx → EReal)
    (x0 x1 : Vec Ideal S1x2048x1024 .f32) (wk0 wv0 wk1 wv1 : Vec Ideal S1024x64 .f32) (b : Fin 4) (d e : Fin 64)
    (hx0 : ∀ (r : Fin 2048) (h : Fin 1024), x0 (ix3 (0 : Fin 1) r h) = A0 (ix3 b (Cert.Spec.tileRow 0 r) h))
    (hx1 : ∀ (r : Fin 2048) (h : Fin 1024), x1 (ix3 (0 : Fin 1) r h) = A0 (ix3 b (Cert.Spec.tileRow 1 r) h))
    (hk0 : ∀ (h : Fin 1024) (d : Fin 64), wk0 (ix2 h d) = A1 (ix2 h d))
    (hv0 : ∀ (h : Fin 1024) (d : Fin 64), wv0 (ix2 h d) = A3 (ix2 h d))
    (hk1 : ∀ (h : Fin 1024) (d : Fin 64), wk1 (ix2 h d) = A1 (ix2 h d))
    (hv1 : ∀ (h : Fin 1024) (d : Fin 64), wv1 (ix2 h d) = A3 (ix2 h d)) :
    (k0_pay5 (k0_pay4 x1 wk1 wv1 (k0_pay4 x0 wk0 wv0 (k0_pay1 (F := Ideal)))) : S1x64x64.Idx → EReal) (ix3 (0 : Fin 1) d e)
      = Cert.Spec.kvAcc (Cert.Spec.cur3 A0) (Cert.Spec.cur2 A1) (Cert.Spec.cur2 A3) b d e := by
  rw [pay5_apply, pay4_apply, pay4_apply, pay1_apply,
    r0_tileKV_sum A0 A1 A3 x0 wk0 wv0 b 0 d e hx0 hk0 hv0, r0_tileKV_sum A0 A1 A3 x1 wk1 wv1 b 1 d e hx1 hk1 hv1]
  rfl

/-- The key-value array as one function of the inputs: the accumulated Kᵀ V of each batch. -/
def r0_kvArr (c : Dev nD) : S4x64x64.Idx → EReal := fun i =>
  Cert.Spec.kvAcc (Cert.Spec.cur3 (V c main_arg0)) (Cert.Spec.cur2 (V c main_arg1)) (Cert.Spec.cur2 (V c main_arg3)) (i 0) (i 1) (i 2)

/-- What a batch's second point leaves in the key-value window, at y, is the key-value array's value at the array
    index of y in that point's block: the accumulator there is the second tile's step on the first tile's step on zero. -/
theorem r0_kvTile_apply (c : Dev nD) (t : Fin cfg0.N) (ht : t.val % 2 = 1) (y : S1x64x64.Idx) (i : S4x64x64.Idx)
    (hi0 : (i 0).val = t.val / 2) (hi1 : (i 1).val = (y 1).val) (hi2 : (i 2).val = (y 2).val) :
    (k0_pay5 (accAt V c t.val t.isLt) : S1x64x64.Idx → EReal) y = r0_kvArr V c i := by
  obtain ⟨y0, d, e, rfl⟩ : ∃ (y0 : Fin 1) (d : Fin 64) (e : Fin 64), y = ix3 y0 d e := ⟨y 0, y 1, y 2, eq_ix3 y⟩
  obtain rfl : y0 = 0 := Subsingleton.elim _ _
  have hlt : t.val - 1 < cfg0.N := Nat.lt_of_le_of_lt (Nat.sub_le _ _) t.isLt
  rw [accAt_odd V c t.val t.isLt ht, accAt_even V c (t.val - 1) hlt (by omega)]
  unfold r0_kvArr
  rw [show (i 1 : Fin 64) = d from Fin.ext hi1, show (i 2 : Fin 64) = e from Fin.ext hi2]
  refine r0_kv_point (V c main_arg0) (V c main_arg1) (V c main_arg3) _ _ _ _ _ _ (i 0) d e
    (fun r h => ?_) (fun r h => ?_) (fun h d => ?_) (fun h d => ?_) (fun h d => ?_) (fun h d => ?_)
  · refine r0_seqBlk_apply V c ⟨t.val - 1, hlt⟩ r h (ix3 (i 0) (Cert.Spec.tileRow 0 r) h) ?_ ?_ rfl
    · show (i 0).val = (t.val - 1) / 2; omega
    · show (0 : Nat) * 2048 + r.val = (t.val - 1) % 2 * 2048 + r.val; omega
  · refine r0_seqBlk_apply V c ⟨t.val, t.isLt⟩ r h (ix3 (i 0) (Cert.Spec.tileRow 1 r) h) ?_ ?_ rfl
    · show (i 0).val = t.val / 2; omega
    · show (1 : Nat) * 2048 + r.val = t.val % 2 * 2048 + r.val; omega
  · exact r0_wkBlk_apply V c _ h d
  · exact r0_wvBlk_apply V c _ h d
  · exact r0_wkBlk_apply V c _ h d
  · exact r0_wvBlk_apply V c _ h d

/-- What a point that writes the key-value block back writes is its block of the key-value array's function. -/
theorem r0_kvFlushed_eq (c : Dev nD) (t : Fin cfg0.N) (hf : (cfg0.win 5).flush t = true) :
    (dat0 V c).flushed 5 t = ((cfg0.win 5).blk t).view.read (Elt Ideal) (r0_kvArr V c) := by
  have ht : t.val % 2 = 1 := (flush0_5 t).mp hf
  show (cfg0.win 5).cut (grid0.coords t) ((dat0 V c).after 5 t) = _
  rw [after0_5]
  obtain ⟨-, -, -, -, -, -, -, -, -, -, -, -, e0, e1, e2⟩ := r0_idx_facts t
  funext y
  rw [View.read_apply]
  show (k0_pay5 (accAt V c t.val t.isLt) : S1x64x64.Idx → EReal) y = r0_kvArr V c (((cfg0.win 5).blk t).view.emb y)
  have hy0 : (y 0).val < 1 := (y 0).isLt
  refine r0_kvTile_apply V c t ht y _ ?_ ?_ ?_
  · show win0_5.index t (0 : Fin 3) * 1 + 1 * (y 0).val = t.val / 2; rw [e0]; omega
  · show win0_5.index t (1 : Fin 3) * 64 + 1 * (y 1).val = (y 1).val; rw [e1]; omega
  · show win0_5.index t (2 : Fin 3) * 64 + 1 * (y 2).val = (y 2).val; rw [e2]; omega

/-- Batch b's key-value block is the block of point 2·b + 1, the batch's second point, which writes it back. -/
theorem r0_kvCover (i : S4x64x64.Idx) :
    ∃ t : Fin cfg0.N, (cfg0.win 5).flush t = true ∧ i ∈ ((cfg0.win 5).blk t).view.set := by
  have h0 : (i 0).val < 4 := (i 0).isLt
  have h1 : (i 1).val < 64 := (i 1).isLt
  have h2 : (i 2).val < 64 := (i 2).isLt
  have hN : grid0.N = 8 := N_0
  obtain ⟨t, ht⟩ : ∃ t : Fin cfg0.N, t.val = 2 * (i 0).val + 1 :=
    ⟨⟨2 * (i 0).val + 1, by show _ < grid0.N; rw [hN]; omega⟩, rfl⟩
  obtain ⟨-, -, -, -, -, -, -, -, -, -, -, -, e0, e1, e2⟩ := r0_idx_facts t
  refine ⟨t, (flush0_5 t).mpr (by omega), ?_⟩
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 64 ≤ (i 2).val ∧ (i 2).val < win0_5.index t (2 : Fin 3) * 64 + 64; rw [e2]; omega

/-- So the key-value array ends holding each batch's accumulated Kᵀ V, everywhere. -/
theorem r0_kvArr_eq (c : Dev nD) : (dat0 V c).arrAt 5 cfg0.N = r0_kvArr V c :=
  (dat0 V c).arrAt_eq_of_cover 5 (r0_kvArr V c) (fun t hf => r0_kvFlushed_eq V c t hf) r0_kvCover

/-- The query array after the first region, at (b, s, d). -/
theorem arrAt4_apply (c : Dev nD) (b : Fin 4) (s : Fin 4096) (d : Fin 64) :
    ((dat0 V c).arrAt 4 cfg0.N : S4x4096x64.Idx → EReal) (ix3 b s d)
      = Cert.Spec.proj (Cert.Spec.cur3 (V c main_arg0)) (Cert.Spec.cur2 (V c main_arg2)) b s d := by
  exact congrFun (r0_queryArr_eq V c) (ix3 b s d)

/-- The key-value array after the first region, at (b, d, e). -/
theorem arrAt5_apply (c : Dev nD) (b : Fin 4) (d e : Fin 64) :
    ((dat0 V c).arrAt 5 cfg0.N : S4x64x64.Idx → EReal) (ix3 b d e)
      = Cert.Spec.kvAcc (Cert.Spec.cur3 (V c main_arg0)) (Cert.Spec.cur2 (V c main_arg1)) (Cert.Spec.cur2 (V c main_arg3)) b d e := by
  exact congrFun (r0_kvArr_eq V c) (ix3 b d e)

end Cert.KernelIdeal.HandValue

end
-- ==== Proof.KernelIdeal.Val1.lean ====
/-
  What the second region leaves in the result array, over the extended reals, index by index: grid point b writes the
  whole block of batch b, the blocks cover the array, and entry (b, s, e) is the sum over the 64 inner coordinates of
  the query entry times the key-value entry of that batch, times 1/8 — of the two arrays as the region finds them.
-/
import proofs.«160206_j2388001817350_1_alg».proof.Proof.KernelIdeal.Apply
import proofs.«160206_j2388001817350_1_alg».proof.Proof.KernelIdeal.PayIdx
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem

open Cert.KernelIdeal.Hand
open Idealize.ShloMosaic.Pipeline (Dat)

variable (V : (c : Dev nD) → (b : Ref sig .tc) → Buf (Elt Ideal) ((c : Thread nD τ).loc b))

/-- The whole result array as one function of the query array and the key-value array: entry (b, s, e) is the sum over
    the 64 inner coordinates d of query (b, s, d) times key-value (b, d, e), times 1/8. -/
def scaledProduct (q : S4x4096x64.Idx → EReal) (kv : S4x64x64.Idx → EReal) : S4x4096x64.Idx → EReal :=
  fun i => (∑ d : Fin 64, Cert.Spec.cur3 q (i 0) (i 1) d * Cert.Spec.cur3 kv (i 0) d (i 2)) * Cert.Spec.c8

/-- The whole-array function read at (b, s, e). -/
theorem scaledProduct_apply (q : S4x4096x64.Idx → EReal) (kv : S4x64x64.Idx → EReal) (b : Fin 4) (s : Fin 4096) (e : Fin 64) :
    scaledProduct q kv (ix3 b s e) = (∑ d : Fin 64, Cert.Spec.cur3 q b s d * Cert.Spec.cur3 kv b d e) * Cert.Spec.c8 := rfl

/-- One batch's block of the result: when the query block is batch b of the query array and the key-value block is
    batch b of the key-value array, the body's payload at (0, s, e) is the whole-array function at (b, s, e). -/
theorem scaledProduct_block_entry (q : Vec Ideal S1x4096x64 .f32) (kv : Vec Ideal S1x64x64 .f32)
    (Q : S4x4096x64.Idx → EReal) (KV : S4x64x64.Idx → EReal) (b : Fin 4)
    (hq : ∀ (s : Fin 4096) (d : Fin 64), q (ix3 (0 : Fin 1) s d) = Q (ix3 b s d))
    (hkv : ∀ (d e : Fin 64), kv (ix3 (0 : Fin 1) d e) = KV (ix3 b d e))
    (s : Fin 4096) (e : Fin 64) :
    (k1_pay1 q kv : S1x4096x64.Idx → EReal) (ix3 (0 : Fin 1) s e) = scaledProduct Q KV (ix3 b s e) := by
  rw [k1pay1_apply, scaledProduct_apply]
  congr 1
  exact Finset.sum_congr rfl fun d _ => by rw [hq, hkv]; rfl

/-- The printed index maps over the four grid points: every window's block index at point t is (t, 0, 0). -/
theorem apply_index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 ∧ t.val < 4 :=
  (by decide +kernel : ∀ t : Fin grid1.N, _)

/-- What grid point t writes back is block t of the whole-array function of the two arrays the region finds: the body's
    payload of the two input blocks at (0, s, e) is the function at (t, s, e), because each input block at point t is
    batch t of its array (a block's array coordinate is block index × block size + the coordinate inside the block). -/
theorem apply_flushed_eq (c : Dev nD) (t : Fin cfg1.N) :
    (dat1 V c).flushed 2 t = ((cfg1.win 2).blk t).view.read (Elt Ideal) (scaledProduct (V c main_v0_0) (V c main_v0_1)) := by
  show (cfg1.win 2).cut (grid1.coords t) ((dat1 V c).after 2 t) = _
  rw [after1_2, out1_2_eq]
  funext y
  obtain ⟨a0, a1, a2, b0, b1, b2, c0, c1, c2, ht⟩ := apply_index_facts t
  have h0 : (y 0).val < 1 := (y 0).isLt
  have h1 : (y 1).val < 4096 := (y 1).isLt
  have h2 : (y 2).val < 64 := (y 2).isLt
  have hl : (cfg1.win 2).xinj (grid1.coords t) y = (ix3 (0 : Fin 1) (⟨(y 1).val, h1⟩ : Fin 4096) (⟨(y 2).val, h2⟩ : Fin 64) : S1x4096x64.Idx) := by
    funext a; apply Fin.ext
    match a with
    | ⟨0, _⟩ => show (y 0).val = 0; omega
    | ⟨1, _⟩ => rfl
    | ⟨2, _⟩ => rfl
  have hr : ((cfg1.win 2).blk t).view.emb y = (ix3 (⟨t.val, ht⟩ : Fin 4) (⟨(y 1).val, h1⟩ : Fin 4096) (⟨(y 2).val, h2⟩ : Fin 64) : S4x4096x64.Idx) := by
    funext a; apply Fin.ext
    match a with
    | ⟨0, _⟩ => show win1_2.index t (0 : Fin 3) * 1 + 1 * (y 0).val = t.val; omega
    | ⟨1, _⟩ => show win1_2.index t (1 : Fin 3) * 4096 + 1 * (y 1).val = (y 1).val; omega
    | ⟨2, _⟩ => show win1_2.index t (2 : Fin 3) * 64 + 1 * (y 2).val = (y 2).val; omega
  show k1_pay1 (iblk1 V c 0 t) (iblk1 V c 1 t) ((cfg1.win 2).xinj (grid1.coords t) y) = scaledProduct (V c main_v0_0) (V c main_v0_1) (((cfg1.win 2).blk t).view.emb y)
  rw [hl, hr]
  refine scaledProduct_block_entry _ _ _ _ _ (fun s d => ?_) (fun d e => ?_) _ _
  · show V c main_v0_0 (((cfg1.win 0).blk t).view.emb (ix3 (0 : Fin 1) s d : S1x4096x64.Idx)) = V c main_v0_0 (ix3 (⟨t.val, ht⟩ : Fin 4) s d : S4x4096x64.Idx)
    congr 1
    funext a; apply Fin.ext
    match a with
    | ⟨0, _⟩ => show win1_0.index t (0 : Fin 3) * 1 + 1 * 0 = t.val; omega
    | ⟨1, _⟩ => show win1_0.index t (1 : Fin 3) * 4096 + 1 * s.val = s.val; omega
    | ⟨2, _⟩ => show win1_0.index t (2 : Fin 3) * 64 + 1 * d.val = d.val; omega
  · show V c main_v0_1 (((cfg1.win 1).blk t).view.emb (ix3 (0 : Fin 1) d e : S1x64x64.Idx)) = V c main_v0_1 (ix3 (⟨t.val, ht⟩ : Fin 4) d e : S4x64x64.Idx)
    congr 1
    funext a; apply Fin.ext
    match a with
    | ⟨0, _⟩ => show win1_1.index t (0 : Fin 3) * 1 + 1 * 0 = t.val; omega
    | ⟨1, _⟩ => show win1_1.index t (1 : Fin 3) * 64 + 1 * d.val = d.val; omega
    | ⟨2, _⟩ => show win1_1.index t (2 : Fin 3) * 64 + 1 * e.val = e.val; omega

/-- An index of the result array lies in point t's block iff each coordinate lies in the block's range on its axis. -/
theorem apply_mem_block (t : Fin cfg1.N) (i : S4x4096x64.Idx) :
    i ∈ ((cfg1.win 2).blk t).view.set ↔ ∀ a : Fin 3, win1_2.index t a * S1x4096x64.size a ≤ (i a).val ∧ (i a).val < win1_2.index t a * S1x4096x64.size a + S1x4096x64.size a := by
  show i ∈ ((View.whole main_v1).slice (win1_2.rect t)).set ↔ _
  rw [View.set_slice_whole, Rect.mem_set_unit]
  exact Iff.rfl

/-- Every batch is some grid point's block index. -/
theorem apply_index_onto : ∀ q0 : Fin 4, ∃ t : Fin cfg1.N, win1_2.index t = ![q0.val, 0, 0] :=
  (by decide +kernel : ∀ q0 : Fin 4, ∃ t : Fin grid1.N, win1_2.index t = ![q0.val, 0, 0])

/-- The blocks cover the result array: index (b, s, e) lies in the block of the point whose block index is (b, 0, 0). -/
theorem apply_covered (i : S4x4096x64.Idx) : ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 64 := (i 2).isLt
  obtain ⟨t, ht⟩ := apply_index_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [apply_mem_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 64 ≤ (i 2).val ∧ (i 2).val < win1_2.index t (2 : Fin 3) * 64 + 64; omega

/-- The result array after the second region is the whole-array function of the two arrays the region finds. -/
theorem arrAt2_eq (c : Dev nD) :
    (dat1 V c).arrAt 2 cfg1.N = scaledProduct (V c main_v0_0) (V c main_v0_1) :=
  (dat1 V c).arrAt_eq_of_cover 2 (scaledProduct (V c main_v0_0) (V c main_v0_1)) (fun t _ => apply_flushed_eq V c t) apply_covered

/-- The result array after the second region, at (b, s, e). -/
theorem arrAt2_apply (c : Dev nD) (b : Fin 4) (s : Fin 4096) (e : Fin 64) :
    ((dat1 V c).arrAt 2 cfg1.N : S4x4096x64.Idx → EReal) (ix3 b s e)
      = (∑ d : Fin 64, Cert.Spec.cur3 (V c main_v0_0) b s d * Cert.Spec.cur3 (V c main_v0_1) b d e) * Cert.Spec.c8 := by
  rw [arrAt2_eq V c]
  exact scaledProduct_apply _ _ b s e

end Cert.KernelIdeal.HandValue

end
-- ==== Proof.RefValue.lean ====
/-
  The reference's value. Its run ends with the result array at one composed term of the argument arrays: the three
  projections as host contractions over the hidden axis, the scores as the batched contraction of queries with keys over
  the 64 inner coordinates, scaled entrywise by 1/√64, and the batched contraction of the scaled scores with the values
  over the sequence axis. Read at an index (b, s, e) over the extended reals that term is the specification's reference
  arrangement; the scale is exactly 1/8, the real square root of 64 being 8.
-/
import proofs.«160206_j2388001817350_1_alg».proof.Proof.Gen.ReferenceIdeal.Run
import proofs.«160206_j2388001817350_1_alg».proof.Proof.Gen.ReferenceIdeal.Read
import proofs.«160206_j2388001817350_1_alg».proof.Proof.Spec
import Idealize.ShloMosaic.PureOps.Ideal.Laws
import Idealize.ShloMosaic.Lib.ValueIdx
import Mathlib.Analysis.Real.Sqrt

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The reference's result as one function of the four argument arrays (x, Wk, Wq, Wv): the last stage of its run. -/
def refArr (x : (⟨S4x4096x1024, .f32⟩ : BufTy).Contents (Elt Ideal)) (wk wq wv : (⟨S1024x64, .f32⟩ : BufTy).Contents (Elt Ideal)) :
    (⟨S4x4096x64, .f32⟩ : BufTy).Contents (Elt Ideal) :=
  Cert.ReferenceIdeal.Read.val_main_v8 (F := Ideal) x wk wq wv

/-! ### Index equations: the reference's composed index functions at coordinates -/

/-- The last contraction reads the scaled scores at (b, s, t) … -/
theorem lidx8_ix (b : Fin 4) (s : Fin 4096) (e : Fin 64) (t : Fin 4096) :
    Cert.ReferenceIdeal.Read.lidx_main_v8 (ix3 b s e) t = ix3 b s t :=
  funext fun a => Fin.ext (by match a with | ⟨0, _⟩ => rfl | ⟨1, _⟩ => rfl | ⟨2, _⟩ => rfl)
/-- … and the values at (b, t, e). -/
theorem ridx8_ix (b : Fin 4) (s : Fin 4096) (e : Fin 64) (t : Fin 4096) :
    Cert.ReferenceIdeal.Read.ridx_main_v8 (ix3 b s e) t = ix3 b t e :=
  funext fun a => Fin.ext (by match a with | ⟨0, _⟩ => rfl | ⟨1, _⟩ => rfl | ⟨2, _⟩ => rfl)
/-- The scores' contraction reads the queries at (b, s, d) … -/
theorem lidx5_ix (b : Fin 4) (s t : Fin 4096) (d : Fin 64) :
    Cert.ReferenceIdeal.Read.lidx_main_v5 (ix3 b s t) d = ix3 b s d :=
  funext fun a => Fin.ext (by match a with | ⟨0, _⟩ => rfl | ⟨1, _⟩ => rfl | ⟨2, _⟩ => rfl)
/-- … and the keys at (b, t, d). -/
theorem ridx5_ix (b : Fin 4) (s t : Fin 4096) (d : Fin 64) :
    Cert.ReferenceIdeal.Read.ridx_main_v5 (ix3 b s t) d = ix3 b t d :=
  funext fun a => Fin.ext (by match a with | ⟨0, _⟩ => rfl | ⟨1, _⟩ => rfl | ⟨2, _⟩ => rfl)
/-- A projection's contraction reads x at (b, s, h) … -/
theorem lidx0_ix (b : Fin 4) (s : Fin 4096) (d : Fin 64) (h : Fin 1024) :
    Cert.ReferenceIdeal.Read.lidx_main_v0 (ix3 b s d) h = ix3 b s h :=
  funext fun a => Fin.ext (by match a with | ⟨0, _⟩ => rfl | ⟨1, _⟩ => rfl | ⟨2, _⟩ => rfl)
/-- … and the weight at (h, d). -/
theorem ridx0_ix (b : Fin 4) (s : Fin 4096) (d : Fin 64) (h : Fin 1024) :
    Cert.ReferenceIdeal.Read.ridx_main_v0 (ix3 b s d) h = ix2 h d :=
  funext fun a => Fin.ext (by match a with | ⟨0, _⟩ => rfl | ⟨1, _⟩ => rfl)

/-! ### The three projections at coordinates -/

/-- K = x·Wk at (b, s, d). -/
theorem keys_apply (x : (⟨S4x4096x1024, .f32⟩ : BufTy).Contents (Elt Ideal)) (wk : (⟨S1024x64, .f32⟩ : BufTy).Contents (Elt Ideal))
    (b : Fin 4) (s : Fin 4096) (d : Fin 64) :
    (Cert.ReferenceIdeal.Read.val_main_v0 (F := Ideal) x wk : S4x4096x64.Idx → EReal) (ix3 b s d)
      = Cert.Spec.proj (Cert.Spec.cur3 x) (Cert.Spec.cur2 wk) b s d := by
  rw [Cert.ReferenceIdeal.Read.val_main_v0_apply]
  unfold Cert.Spec.proj Cert.Spec.cur3 Cert.Spec.cur2
  exact Finset.sum_congr rfl fun h _ => by rw [lidx0_ix, ridx0_ix]
/-- Q = x·Wq at (b, s, d). -/
theorem queries_apply (x : (⟨S4x4096x1024, .f32⟩ : BufTy).Contents (Elt Ideal)) (wq : (⟨S1024x64, .f32⟩ : BufTy).Contents (Elt Ideal))
    (b : Fin 4) (s : Fin 4096) (d : Fin 64) :
    (Cert.ReferenceIdeal.Read.val_main_v1 (F := Ideal) x wq : S4x4096x64.Idx → EReal) (ix3 b s d)
      = Cert.Spec.proj (Cert.Spec.cur3 x) (Cert.Spec.cur2 wq) b s d := by
  rw [Cert.ReferenceIdeal.Read.val_main_v1_apply]
  unfold Cert.Spec.proj Cert.Spec.cur3 Cert.Spec.cur2
  exact Finset.sum_congr rfl fun h _ => by
    rw [show Cert.ReferenceIdeal.Read.lidx_main_v1 (ix3 b s d) h = ix3 b s h from lidx0_ix b s d h,
      show Cert.ReferenceIdeal.Read.ridx_main_v1 (ix3 b s d) h = ix2 h d from ridx0_ix b s d h]
/-- V = x·Wv at (b, s, d). -/
theorem values_apply (x : (⟨S4x4096x1024, .f32⟩ : BufTy).Contents (Elt Ideal)) (wv : (⟨S1024x64, .f32⟩ : BufTy).Contents (Elt Ideal))
    (b : Fin 4) (s : Fin 4096) (d : Fin 64) :
    (Cert.ReferenceIdeal.Read.val_main_v2 (F := Ideal) x wv : S4x4096x64.Idx → EReal) (ix3 b s d)
      = Cert.Spec.proj (Cert.Spec.cur3 x) (Cert.Spec.cur2 wv) b s d := by
  rw [Cert.ReferenceIdeal.Read.val_main_v2_apply]
  unfold Cert.Spec.proj Cert.Spec.cur3 Cert.Spec.cur2
  exact Finset.sum_congr rfl fun h _ => by
    rw [show Cert.ReferenceIdeal.Read.lidx_main_v2 (ix3 b s d) h = ix3 b s h from lidx0_ix b s d h,
      show Cert.ReferenceIdeal.Read.ridx_main_v2 (ix3 b s d) h = ix2 h d from ridx0_ix b s d h]

/-! ### The constants -/

/-- The word of 64.0 denotes the real 64. -/
theorem ofBits_64 : Ideal.ofBits .f32 0x42800000#32 = ((64 : ℝ) : EReal) := by
  simp [Ideal.ofBits, Ideal.ieee, -EReal.coe_mul]; norm_num
/-- The word of 1.0 denotes 1. -/
theorem ofBits_one : Ideal.ofBits .f32 0x3F800000#32 = 1 := by
  simp [Ideal.ofBits, Ideal.ieee, -EReal.coe_mul]; norm_num
/-- The real square root of 64 is 8. -/
theorem sqrt_64 : Real.sqrt 64 = 8 := by
  rw [show (64 : ℝ) = 8 ^ 2 by norm_num]
  exact Real.sqrt_sq (by norm_num)

/-- The reference's scale: one over the square root of 64 is the real 1/8. -/
theorem scale_eq (i : S_.Idx) : (Cert.ReferenceIdeal.Read.val_main_v4 (F := Ideal) : S_.Idx → EReal) i = Cert.Spec.c8 := by
  rw [Cert.ReferenceIdeal.Read.val_main_v4_apply, Cert.ReferenceIdeal.Read.val_main_v3_apply,
    Cert.ReferenceIdeal.Read.val_main_cst_apply, Cert.ReferenceIdeal.Read.val_main_cst_0_apply,
    Ideal.hostDivf_def, Ideal.hostUnary_sqrt_def, Ideal.ofBits_def, Ideal.ofBits_def, ofBits_64, ofBits_one,
    Ideal.sqrt_coe, if_neg (by norm_num), sqrt_64, Ideal.div_coe (by norm_num), one_mul]
  rfl

/-- The reference's result at (b, s, e) is the specification's reference arrangement of the arguments read by coordinates. -/
theorem refArr_apply (x : (⟨S4x4096x1024, .f32⟩ : BufTy).Contents (Elt Ideal)) (wk wq wv : (⟨S1024x64, .f32⟩ : BufTy).Contents (Elt Ideal))
    (b : Fin 4) (s : Fin 4096) (e : Fin 64) :
    (refArr x wk wq wv : S4x4096x64.Idx → EReal) (ix3 b s e)
      = Cert.Spec.refOut (Cert.Spec.cur3 x) (Cert.Spec.cur2 wk) (Cert.Spec.cur2 wq) (Cert.Spec.cur2 wv) Cert.Spec.c8 b s e := by
  unfold refArr
  rw [Cert.ReferenceIdeal.Read.val_main_v8_apply]
  unfold Cert.Spec.refOut
  refine Finset.sum_congr rfl fun t _ => ?_
  rw [lidx8_ix, ridx8_ix, Cert.ReferenceIdeal.Read.val_main_v7_apply, Cert.ReferenceIdeal.Read.val_main_v5_apply,
    Cert.ReferenceIdeal.Read.val_main_v6_apply, scale_eq, values_apply, Ideal.mulf_def]
  refine congrArg (fun z => z * Cert.Spec.c8 * _) ?_
  exact Finset.sum_congr rfl fun d _ => by rw [lidx5_ix, ridx5_ix, queries_apply, keys_apply]

/-- The reference's run with its result named `refArr` of the arguments' launch contents. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = refArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Cert.ReferenceIdeal.Read.val_main_v8_eq (F := Ideal) _ _ _ _), (h c).2⟩)
    (Cert.ReferenceIdeal.Value.run (F := Ideal) m ρ)

end Cert.ReferenceIdeal.RefValue

end
-- ==== Proof.Finite.lean ====
/-
  From the precondition to real numbers. The precondition says that each of the four inputs has every entry of absolute
  value below +∞; over the extended reals an entry whose absolute value is below +∞ is neither infinity, hence a real.
-/
import proofs.«160206_j2388001817350_1_alg».proof.Pre_finite_inputs
import proofs.«160206_j2388001817350_1_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs Cert.Pre_finite_inputs.Gen

/-- The rank-0 shape has exactly one index. -/
theorem subsingleton_scalar_idx : Subsingleton S_.Idx := ⟨fun a b => funext fun d => d.elim0⟩

/-- The word 0x7F800000 is +∞ in the extended reals. -/
theorem inf_word : Ideal.ofBits .f32 0x7F800000#32 = (⊤ : EReal) := by
  simp [Ideal.ofBits, Ideal.ieee]

/-- An extended real whose absolute value max x (-x) lies strictly below +∞ is a real: at -∞ the negation is +∞, at +∞
    the entry itself is, and in both cases the maximum is +∞. -/
theorem real_of_abs_lt_top (x : EReal) (hx : max x (-x) < ⊤) : ∃ r : ℝ, x = (r : EReal) := by
  induction x using EReal.rec with
  | bot => simp at hx
  | coe r => exact ⟨r, rfl⟩
  | top => simp at hx

/-- One input's conjunct, for an array of any shape: if the conjunction over all entries of "|a i| < +∞" (the scalar +∞
    broadcast to the array's shape) is one, every entry of the array is a real. -/
theorem real_of_all {S : Shape} {axes : List (Fin S.rank)} (a : FVec Ideal S .f32)
    (hb : S_.BroadcastsInDim S (![] : Fin 0 → Fin S.rank)) (hr : S.ReducesTo axes S_) (hu : 0 < S_.numel)
    (init : IVec S_ 1) (j : S_.Idx)
    (e : Host.reduce IntOp.andi
      (cmpf .olt (Host.absf a) (broadcastInDim S ![] hb (constant (F := Ideal) S_ .f32 0x7F800000#32))) init hr hu j = 1#1)
    (i : S.Idx) : ∃ r : ℝ, a i = (r : EReal) := by
  haveI := subsingleton_scalar_idx
  have hi := Host.reduce_andi_all _ init hr hu j e i
  -- at an index the comparison reads |a i| against the broadcast scalar, which is +∞ everywhere
  have hi' : Ideal.cmp .olt (max (a i) (-(a i))) (Ideal.ofBits .f32 0x7F800000#32) = 1#1 := hi
  rw [inf_word] at hi'
  refine real_of_abs_lt_top (a i) ?_
  by_contra hn
  simp only [Ideal.cmp, hn, decide_false] at hi'
  exact absurd hi' (by decide)

/-- If the precondition's function is all ones on four arrays, every entry of each is a real number. -/
theorem real_of_fn (a0 : FVec Ideal S4x4096x1024 .f32) (a1 a2 a3 : FVec Ideal S1024x64 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the result is the conjunction of the four inputs' truth values
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ _ _ e0, real_of_all a1 _ _ _ _ _ e1, real_of_all a2 _ _ _ _ _ e2,
    real_of_all a3 _ _ _ _ _ e3⟩

end Cert.Pre_finite_inputs.Finite

end
-- ==== Proof.lean ====
/-
  The certificate of a two-kernel linear-attention program against its jnp reference.

  For a batch of sequences x[4, 4096, 1024] and weights Wk, Wq, Wv[1024, 64] write K = x·Wk, Q = x·Wq, V = x·Wv. The
  reference computes ((Q Kᵀ)·(1/√64))·V, a [4096, 4096] score matrix per batch. The kernel uses that there is no
  nonlinearity between the two products: its first region writes Q tile by tile and accumulates the small matrix Kᵀ V
  over the two halves of the sequence axis in a scratch (reset at the first half, written out at the second); its second
  region multiplies Q with that matrix and scales by 1/8. Over the extended reals the changes of float format are
  identities and 1/√64 is exactly 1/8, so both sides are the triple sum of Q[s,d]·K[t,d]·V[t,e] over (t, d), times 1/8:
  equal whenever every input entry is a real number, which is the precondition.

  The frames: both kernel programs are the two regions launched in order with the contents of every buffer named at the
  region boundaries (Proof/KernelIdeal/Run.lean and, for the program as printed, the same text at the bit-level
  instance); the reference's frame is its run with the result dropped.
-/
import proofs.«160206_j2388001817350_1_alg».proof.Defs
import proofs.«160206_j2388001817350_1_alg».proof.Proof.Gen.Kernel
import proofs.«160206_j2388001817350_1_alg».proof.Proof.Gen.KernelIdeal
import proofs.«160206_j2388001817350_1_alg».proof.Proof.Gen.ReferenceIdeal
import proofs.«160206_j2388001817350_1_alg».proof.Proof.Gen.Pre_finite_inputs
import proofs.«160206_j2388001817350_1_alg».proof.Proof.Kernel.Run
import proofs.«160206_j2388001817350_1_alg».proof.Proof.KernelIdeal.Run
import proofs.«160206_j2388001817350_1_alg».proof.Proof.KernelIdeal.Val0
import proofs.«160206_j2388001817350_1_alg».proof.Proof.KernelIdeal.Val1
import proofs.«160206_j2388001817350_1_alg».proof.Proof.RefValue
import proofs.«160206_j2388001817350_1_alg».proof.Proof.Finite
import proofs.«160206_j2388001817350_1_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The program as printed runs and leaves its arguments unchanged. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The ideal pass rewrote no operation: nothing to preserve. -/
theorem preserves : Cert.preserves_Kernel_KernelIdeal := trivial

/-- The kernel's result array, index by index: the kernel's arrangement of the specification, of the arguments as launched. -/
theorem kernel_value (m : (ℓ : Loc Cert.KernelIdeal.nD Cert.KernelIdeal.τ Cert.KernelIdeal.sig) → Buf (Elt Ideal) ℓ) (c : Dev Cert.KernelIdeal.nD)
    (b : Fin 4) (s : Fin 4096) (e : Fin 64) :
    ((Cert.KernelIdeal.Hand.dat1 (Cert.KernelIdeal.Hand.V1 m) c).arrAt 2 Cert.KernelIdeal.cfg1.N : Cert.KernelIdeal.S4x4096x64.Idx → EReal) (ix3 b s e)
      = Cert.Spec.kerOut (Cert.Spec.cur3 (m ((c.tc : Thread Cert.KernelIdeal.nD Cert.KernelIdeal.τ).loc Cert.KernelIdeal.main_arg0)))
          (Cert.Spec.cur2 (m ((c.tc : Thread Cert.KernelIdeal.nD Cert.KernelIdeal.τ).loc Cert.KernelIdeal.main_arg1)))
          (Cert.Spec.cur2 (m ((c.tc : Thread Cert.KernelIdeal.nD Cert.KernelIdeal.τ).loc Cert.KernelIdeal.main_arg2)))
          (Cert.Spec.cur2 (m ((c.tc : Thread Cert.KernelIdeal.nD Cert.KernelIdeal.τ).loc Cert.KernelIdeal.main_arg3)))
          Cert.Spec.c8 b s e := by
  rw [Cert.KernelIdeal.HandValue.arrAt2_apply]
  unfold Cert.Spec.kerOut
  refine congrArg (· * Cert.Spec.c8) (Finset.sum_congr rfl fun d _ => ?_)
  have hq : Cert.Spec.cur3 (Cert.KernelIdeal.Hand.V1 m c Cert.KernelIdeal.main_v0_0) b s d
      = Cert.Spec.proj (Cert.Spec.cur3 (m ((c.tc : Thread Cert.KernelIdeal.nD Cert.KernelIdeal.τ).loc Cert.KernelIdeal.main_arg0)))
          (Cert.Spec.cur2 (m ((c.tc : Thread Cert.KernelIdeal.nD Cert.KernelIdeal.τ).loc Cert.KernelIdeal.main_arg2))) b s d := by
    unfold Cert.Spec.cur3
    rw [Cert.KernelIdeal.Hand.V1_main_v0_0]
    exact Cert.KernelIdeal.HandValue.arrAt4_apply (Cert.KernelIdeal.Hand.V0 m) c b s d
  have hkv : Cert.Spec.cur3 (Cert.KernelIdeal.Hand.V1 m c Cert.KernelIdeal.main_v0_1) b d e
      = Cert.Spec.kvAcc (Cert.Spec.cur3 (m ((c.tc : Thread Cert.KernelIdeal.nD Cert.KernelIdeal.τ).loc Cert.KernelIdeal.main_arg0)))
          (Cert.Spec.cur2 (m ((c.tc : Thread Cert.KernelIdeal.nD Cert.KernelIdeal.τ).loc Cert.KernelIdeal.main_arg1)))
          (Cert.Spec.cur2 (m ((c.tc : Thread Cert.KernelIdeal.nD Cert.KernelIdeal.τ).loc Cert.KernelIdeal.main_arg3))) b d e := by
    unfold Cert.Spec.cur3
    rw [Cert.KernelIdeal.Hand.V1_main_v0_1]
    exact Cert.KernelIdeal.HandValue.arrAt5_apply (Cert.KernelIdeal.Hand.V0 m) c b d e
  rw [hq, hkv]

/-- Both idealized programs run, and end with equal results. -/
theorem algebraic : Cert.algebraic_KernelIdeal_ReferenceIdeal := by
  intro m ρ m' ρ' hpre hagree
  refine ⟨fun c => (Cert.KernelIdeal.Hand.dat1 (Cert.KernelIdeal.Hand.V1 m) c).arrAt 2 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2]
  obtain ⟨h0, h1, h2, h3⟩ := Cert.Pre_finite_inputs.Finite.real_of_fn _ _ _ _ (hpre c)
  funext i
  obtain ⟨b, s, e, rfl⟩ : ∃ (b : Fin 4) (s : Fin 4096) (e : Fin 64), i = ix3 b s e := ⟨i 0, i 1, i 2, eq_ix3 i⟩
  refine (Cert.ReferenceIdeal.RefValue.refArr_apply _ _ _ _ b s e).trans ?_
  refine Eq.trans ?_ (kernel_value m c b s e).symm
  exact (Cert.Spec.kerOut_eq_refOut _ _ _ _ (1 / 8)
    (fun b s h => h0 (ix3 b s h)) (fun h d => h1 (ix2 h d)) (fun h d => h2 (ix2 h d)) (fun h d => h3 (ix2 h d)) b s e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
